-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S4096x8192 : Shape := ⟨2, ![4096, 8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S4096x8192 1) (main_arg2 : IVec S4096x8192 1) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S4096x8192 : Shape := ⟨2, ![4096, 8192]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1024x256 : Shape := ⟨2, ![1024, 256]⟩
abbrev S1024x1 : Shape := ⟨2, ![1024, 1]⟩
abbrev S1024x1024 : Shape := ⟨2, ![1024, 1024]⟩
abbrev S256x1024 : Shape := ⟨2, ![256, 1024]⟩
abbrev S1024 : Shape := ⟨1, ![1024]⟩

abbrev nBuf : Space → Nat
  | .hbm => 15
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S4096x8192, .i1⟩
  | .hbm, ⟨2, _⟩ => ⟨S4096x8192, .i1⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x8192, .i32⟩
  | .hbm, ⟨10, _⟩ => ⟨S4096x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S8192x256, .f32⟩
  | .local _ .vmem, ⟨3, _⟩ => ⟨S1024x1, .f32⟩
  | .local _ .vmem, ⟨4, _⟩ => ⟨S1024x1, .f32⟩
  | .local _ .vmem, ⟨5, _⟩ => ⟨S1024x1024, .i32⟩
  | .local _ .vmem, ⟨6, _⟩ => ⟨S1024x1024, .i32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_15 : BitVec 32 := 0#32
  let v31 : BitVec 1 := Scalar.cmpi .ne v30 c0_i32_15
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S8192x256_S4096x256_0_0 : S8192x256.Slices ![0, 0] S4096x256
  slices_S8192x256_S4096x256_4096_0 : S8192x256.Slices ![4096, 0] S4096x256
  reducesTo_S4096x256_S4096_d1 : S4096x256.ReducesTo [1] S4096
  h_S_ : 0 < S_.numel
  bcast_S4096_S4096x1_0 : S4096.BroadcastsInDim S4096x1 (![0] : Fin 1 → Fin S4096x1.rank)
  natLt_1_32 : 1 < 32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1024x256 : 0 < S1024x256.numel
  inb_S1024x256_S1024x256_0_0 : ∀ a, (![0, 0] : Fin 2 → Nat) a + S1024x256.size a ≤ S1024x256.size a
  transposes_S1024x256_p1_0_S256x1024 : S1024x256.Transposes [1, 0] S256x1024
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reducesTo_S4096x1_S_d0_1 : S4096x1.ReducesTo [0, 1] S_
  dot_S1024x256_S256x1024_S1024x1024_1_0_0_1_n_n_wf : DotDims.WF S1024x256 S256x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x8192.size a
  hwx0_3 : ∀ i : grid0.Coords, EltTy.bits .i32 = 32 ∨ (Rect.block (s := S4096x8192) S1024x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S4096x8192 : Shape := ⟨2, ![4096, 8192]⟩
abbrev S256x8192 : Shape := ⟨2, ![256, 8192]⟩
abbrev S8192x8192 : Shape := ⟨2, ![8192, 8192]⟩
abbrev S4096 : Shape := ⟨1, ![4096]⟩
abbrev S_ : Shape := ⟨0, ![]⟩
abbrev S4096x1 : Shape := ⟨2, ![4096, 1]⟩
abbrev S4096x2 : Shape := ⟨2, ![4096, 2]⟩

abbrev nBuf : Space → Nat
  | .hbm => 44
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4096x8192, .i1⟩
  | .hbm, ⟨2, _⟩ => ⟨S4096x8192, .i1⟩
  | .hbm, ⟨3, _⟩ => ⟨S256x8192, .f32⟩
  | .hbm, ⟨4, _⟩ => ⟨S8192x8192, .f32⟩
  | .hbm, ⟨5, _⟩ => ⟨S4096x8192, .f32⟩
  | .hbm, ⟨6, _⟩ => ⟨S4096, .i32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S4096x1, .i32⟩
  | .hbm, ⟨27, _⟩ => ⟨S4096x2, .i32⟩
  | .hbm, ⟨28, _⟩ => ⟨S4096, .f32⟩
  | .hbm, ⟨29, _⟩ => ⟨S4096x1, .f32⟩
  | .hbm, ⟨30, _⟩ => ⟨S4096x8192, .f32⟩
  | .hbm, ⟨31, _⟩ => ⟨S4096x8192, .f32⟩
  | .hbm, ⟨32, _⟩ => ⟨S4096x8192, .f32⟩
  | .hbm, ⟨33, _⟩ => ⟨S_, .f32⟩
  | .hbm, ⟨34, _⟩ => ⟨S_, .f32⟩
  | .hbm, ⟨35, _⟩ => ⟨S4096x8192, .f32⟩
  | .hbm, ⟨36, _⟩ => ⟨S4096x8192, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  transposes_S8192x256_S256x8192_1_0 : S8192x256.Transposes [1, 0] S256x8192
  slices_S8192x8192_S4096x8192_0_0 : S8192x8192.Slices ![0, 0] S4096x8192
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S4096x1_S4096x8192_0_1 : S4096x1.BroadcastsInDim S4096x8192 (![0, 1] : Fin 2 → Fin S4096x8192.rank)
  bcast_S_S4096x8192 : S_.BroadcastsInDim S4096x8192 (![] : Fin 0 → Fin S4096x8192.rank)
  reducesTo_S4096x8192_S4096_d1 : S4096x8192.ReducesTo [1] S4096
  h_S_ : 0 < S_.numel
  reducesTo_S4096_S_d0 : S4096.ReducesTo [0] S_
  dot_S8192x256_S256x8192_S8192x8192_1_0_0_1_n_n_wf : DotDims.WF S8192x256 S256x8192 S8192x8192 [1] [0] [0] [1] [] []
  gather_S4096x8192_S4096x2_S4096_n_01_n_n_01_1_11_wf : GatherDims.WF S4096x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S4096x8192_S4096x2_S4096_n_01_n_n_01_1_11 : GatherDims S4096x8192 S4096x2 S4096 where
  offsetDims := []
  collapsedSliceDims := [0, 1]
  operandBatchingDims := []
  startIndicesBatchingDims := []
  startIndexMap := [0, 1]
  indexVectorDim := 1
  sliceSizes := ![1, 1]
  wf := gather_S4096x8192_S4096x2_S4096_n_01_n_n_01_1_11_wf

class Facts : Prop extends Facts₀ where

variable [Facts]
-- ==== Proof.KB.Base.lean ====
/-
  The frame of the kernel program, first module: what the runs of its body share.

  @main is seven host operations (the two halves of the embeddings sliced, multiplied and summed along the feature
  axis: the anchor column; the mask widened to words), ONE kernel region over a 4 × 8 grid, and four host operations
  (the column of row values summed and divided). The region's body keeps a column accumulator in a scratch buffer
  across the eight points of a row tile: zeroed at the first, added to at every one, and at the last read back through
  `log1p` into the output block. Two windows stage the same array (the embeddings: a row tile of it, and all of it).
  Here: the contents the region is entered with, @main reduced to the region continued by the later operations, each
  window's block at a point, the two branch conditions in closed form over the grid, where the output window is idle,
  and the staging memrefs by name.
-/
import proofs.«419425_j26792005992921_3_alg».proof.Proof.Gen.Kernel.Launch
import proofs.«419425_j26792005992921_3_alg».proof.Proof.Gen.Kernel.Skeleton
import proofs.«419425_j26792005992921_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the seven operations before it have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region CONTINUED BY the four later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The accumulator is zeroed when the column tile is the first: -/
abbrev cond0_0 (i : grid0.Coords) : Prop := (Scalar.cmpi .ne (Scalar.extui (Scalar.cmpi .eq (BitVec.ofNat 32 (i 1).val) 0#32)) 0#32) = 1#1
/-- at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The output block is stored when the column tile is the last: -/
abbrev cond0_1 (i : grid0.Coords) : Prop := k0_cond2 i = 1#1
/-- at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the output block is not stored the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The staging memrefs -/

/-- One staging buffer of the output window, through which its contents are stated. -/
abbrev VO0_4 : View sig .tc .vmem S1024x1 .f32 := (Memref.whole cc0_stg4_0 : Memref sig .tc .vmem S1024x1 .f32).view
/-- Each window's current staging memref at point `t`, as the pipeline passes it, and its wholeness. -/
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The accumulator: a whole scoped buffer of the kernel's own, passed beside the windows. -/
abbrev scM0_0 : Memref sig .tc .vmem S1024x1 .f32 := Memref.whole cc0_scratch0
abbrev VS0_0 : View sig .tc .vmem S1024x1 .f32 := scM0_0.view

/-- What the launch hands the region beside the windows: the accumulator owned at some contents, and the generator
    register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KB.RunA.lean ====
/-
  The body's run at the FIRST column tile of a row tile (the accumulator is zeroed, then the tile's column sums are
  added; the output block is not stored): on whole staging memrefs, the inputs' at their contents, the output's handed
  back untouched, the accumulator's at anything, the body runs to the continuation holding the inputs as they were and
  the accumulator with its stores written. The stores are the witness the run finds.
-/
import proofs.«419425_j26792005992921_3_alg».proof.Proof.KB.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first column tile: `cond0_0` holds, `cond0_1` does not. -/
noncomputable def kernelRun0_A (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x256 .f32) (x1 : Vec F S8192x256 .f32) (x2 : Vec F S1024x1 .f32) (x3 : Vec F S1024x1024 .i32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__npair_kernel i arg2 harg2 arg3 harg3 arg4 harg4 arg5 harg5 arg6 harg6 arg7 harg7) K } := by
  refine ⟨[], ?_, fun xi4 E K => ?run⟩
  case run =>
    simp only [cc0__npair_kernel_eq_skeleton]; unfold cc0__npair_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.KB.RunB.lean ====
/-
  The body's run at a MIDDLE column tile of a row tile (the tile's column sums are added to the accumulator the
  point before left; the output block is not stored): the accumulator enters at its known contents and ends with its
  store written; the output's memref is handed back untouched.
-/
import proofs.«419425_j26792005992921_3_alg».proof.Proof.KB.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle column tile: neither condition holds. -/
noncomputable def kernelRun0_B (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x256 .f32) (x1 : Vec F S8192x256 .f32) (x2 : Vec F S1024x1 .f32) (x3 : Vec F S1024x1024 .i32) (xs0 : Vec F S1024x1 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__npair_kernel i arg2 harg2 arg3 harg3 arg4 harg4 arg5 harg5 arg6 harg6 arg7 harg7) K } := by
  refine ⟨[], ?_, fun xi4 E K => ?run⟩
  case run =>
    simp only [cc0__npair_kernel_eq_skeleton]; unfold cc0__npair_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.KB.RunC.lean ====
/-
  The body's run at the LAST column tile of a row tile (the tile's column sums are added to the accumulator, and the
  accumulator is read back through log1p into the output block): the accumulator enters at its known contents, the
  output's memref at anything; both end with their stores written.
-/
import proofs.«419425_j26792005992921_3_alg».proof.Proof.KB.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last column tile: `cond0_1` holds, `cond0_0` does not. -/
noncomputable def kernelRun0_C (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .f32) (x1 : Vec F S8192x256 .f32) (x2 : Vec F S1024x1 .f32) (x3 : Vec F S1024x1024 .i32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__npair_kernel i arg2 harg2 arg3 harg3 arg4 harg4 arg5 harg5 arg6 harg6 arg7 harg7) K } := by
  refine ⟨?_, ?_, fun E K => ?run⟩
  case run =>
    simp only [cc0__npair_kernel_eq_skeleton]; unfold cc0__npair_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.KB.Frame.lean ====
/-
  The frame of the kernel program, the body's half: what each case of the body leaves in the accumulator and in the
  output block, the accumulation point by point over the grid, the region's invariant (the accumulator at what the point
  before left), the pipeline's proof data, and the body obligation at every point.

  The embeddings reach the body through two windows (a row tile, and the whole table); each window holds the array at
  half of its share. The other two inputs and the output are held whole.
-/
import proofs.«419425_j26792005992921_3_alg».proof.Proof.KB.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At the first column tile nothing is stored into the output block: a placeholder nothing consults. -/
def out0_A_4 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x256 .f32) (x1 : Vec F S8192x256 .f32) (x2 : Vec F S1024x1 .f32) (x3 : Vec F S1024x1024 .i32) : Vec F S1024x1 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- The first column tile's stores into the accumulator cover it. -/
theorem scover0_A_0 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x256 .f32) (x1 : Vec F S8192x256 .f32) (x2 : Vec F S1024x1 .f32) (x3 : Vec F S1024x1024 .i32) (y : S1024x1.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x1.size (by sl_kernel_rfl) y

/-- What the first column tile leaves in the accumulator. -/
def sout0_A_0 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x256 .f32) (x1 : Vec F S8192x256 .f32) (x2 : Vec F S1024x1 .f32) (x3 : Vec F S1024x1024 .i32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- At a middle column tile nothing is stored into the output block either. -/
def out0_B_4 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x256 .f32) (x1 : Vec F S8192x256 .f32) (x2 : Vec F S1024x1 .f32) (x3 : Vec F S1024x1024 .i32) (xs0 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

theorem scover0_B_0 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x256 .f32) (x1 : Vec F S8192x256 .f32) (x2 : Vec F S1024x1 .f32) (x3 : Vec F S1024x1024 .i32) (xs0 : Vec F S1024x1 .f32) (y : S1024x1.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x1.size (by sl_kernel_rfl) y

/-- What a middle column tile leaves in the accumulator, over what the point before left. -/
def sout0_B_0 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x256 .f32) (x1 : Vec F S8192x256 .f32) (x2 : Vec F S1024x1 .f32) (x3 : Vec F S1024x1024 .i32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- The last column tile's store into the output block covers it. -/
theorem cover0_C_4 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .f32) (x1 : Vec F S8192x256 .f32) (x2 : Vec F S1024x1 .f32) (x3 : Vec F S1024x1024 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1.size (by sl_kernel_rfl) y

/-- What the last column tile leaves in the output block. -/
def out0_C_4 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .f32) (x1 : Vec F S8192x256 .f32) (x2 : Vec F S1024x1 .f32) (x3 : Vec F S1024x1024 .i32) (xs0 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C_0 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .f32) (x1 : Vec F S8192x256 .f32) (x2 : Vec F S1024x1 .f32) (x3 : Vec F S1024x1024 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x1.size (by sl_kernel_rfl) y

/-- What the last column tile leaves in the accumulator. -/
def sout0_C_0 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .f32) (x1 : Vec F S8192x256 .f32) (x2 : Vec F S1024x1 .f32) (x3 : Vec F S1024x1024 .i32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## The accumulation, point by point -/

/-- What the output block and the accumulator hold after the body at position `n` (a pair): the case the closed forms
    select at `n`, run at the point's memrefs and input blocks, the accumulator entering at what position `n - 1` left. -/
def outsAt0 (c : Dev nD) : (n : ℕ) → n < cfg0.N → Vec F S1024x1 .f32 × Vec F S1024x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at what
    the point before left in it; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The two halves of a full share. -/
abbrev shL : PosShare TreeShare := fullShare.left
abbrev shR : PosShare TreeShare := fullShare.right

/-- The proof data on core `c`: the arrays as the region finds them; after the body each input's buffer at its block
    and the output's at `outsAt0`; the invariant `PhiS`; nothing owed; the embeddings at one half share per window on
    them, the anchors and the mask whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => shL
    | ⟨1, _⟩ => shR
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; the closed forms say which case the point is in; the
    invariant hands the body the accumulator at what the point before left (at anything at the first point) and takes
    it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 8 = 7
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

end Cert.Kernel.Fr

end
-- ==== Proof.KB.Launch.lean ====
/-
  The frame of the kernel program, the launch: @main's run from the body obligation.

  The embeddings' buffer stands behind two windows. At the region's entry its full share is dealt to them half and
  half; at the exit both halves come back at the contents they were given (neither window is written), are joined
  again, and the four operations after the region run over every unscoped buffer: the output's array at what the
  write-backs left in it, everything else as the region found it. The run's post reads every unscoped buffer at the
  end: the contents after those four operations.
-/
import proofs.«419425_j26792005992921_3_alg».proof.Proof.KB.Frame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers behind the windows, and the windows' arrays at their shares -/

/-- The four buffers behind the five windows, one by one. -/
theorem arrBufs0_eq (c : Dev nD) (Wv : (b : Ref sig .tc) → Buf (Elt F) ((c : Thread nD τ).loc b)) :
    (Pipeline.arrBufs spec0 c Wv : sProp 𝕄)
      = iprop((((c : Thread nD τ).loc main_arg0) ↦{fullShare} Wv main_arg0) ∗ (((c : Thread nD τ).loc main_v4) ↦{fullShare} Wv main_v4)
          ∗ (((c : Thread nD τ).loc main_v5) ↦{fullShare} Wv main_v5) ∗ (((c : Thread nD τ).loc main_v6) ↦{fullShare} Wv main_v6)) := by
  unfold Pipeline.arrBufs
  exact bigSep_eq_bigSepL_of_eq [main_arg0, main_v4, main_v5, main_v6] (by decide) (by decide) _

/-- The windows' arrays at contents read off a valuation of the buffers, one by one: the embeddings at a half share
    for each of the two windows on them. -/
theorem arrays0_eq (c : Dev nD) (Wv : (b : Ref sig .tc) → Buf (Elt F) ((c : Thread nD τ).loc b)) :
    ((dats m 0 c).arrays (fun w => Wv (Pipeline.arrRef spec0 w)) : sProp 𝕄)
      = iprop((((c : Thread nD τ).loc main_arg0) ↦{shL} Wv main_arg0) ∗ (((c : Thread nD τ).loc main_arg0) ↦{shR} Wv main_arg0)
          ∗ (((c : Thread nD τ).loc main_v4) ↦{fullShare} Wv main_v4) ∗ (((c : Thread nD τ).loc main_v5) ↦{fullShare} Wv main_v5)
          ∗ (((c : Thread nD τ).loc main_v6) ↦{fullShare} Wv main_v6)) := by
  unfold Dat.arrays
  rw [bigSep_W0, (arr_whole0 0).set_eq_univ, (arr_whole0 2).set_eq_univ, (arr_whole0 3).set_eq_univ, (arr_whole0 4).set_eq_univ]
  rfl

/-- Dealing the embeddings' full share to the two windows on them, and joining the halves again. -/
theorem arrBufs_arrays (c : Dev nD) (Wv : (b : Ref sig .tc) → Buf (Elt F) ((c : Thread nD τ).loc b)) :
    (Pipeline.arrBufs spec0 c Wv : sProp 𝕄) ⊣⊢ (dats m 0 c).arrays (fun w => Wv (Pipeline.arrRef spec0 w)) := by
  rw [arrBufs0_eq, arrays0_eq]
  constructor
  · iintro ⟨H0, H2, H3, H4⟩
    ihave H01 := (pointsTo_share (PosShare.mem_left_op_right fullShare)).1 $$ H0
    icases H01 with ⟨Ha, Hb⟩
    isplitl [Ha]; · iexact Ha
    isplitl [Hb]; · iexact Hb
    isplitl [H2]; · iexact H2
    isplitl [H3]; · iexact H3
    iexact H4
  · iintro ⟨Ha, Hb, H2, H3, H4⟩
    isplitl [Ha Hb]
    · iapply (pointsTo_share (PosShare.mem_left_op_right fullShare)).2
      isplitl [Ha]; · iexact Ha
      iexact Hb
    isplitl [H2]; · iexact H2
    isplitl [H3]; · iexact H3
    iexact H4

/-! ## The contents at the region's exit and at the end -/

/-- Core `c`'s contents when the region is left: the output's array at what the write-backs left in it, every other
    buffer as the region found it. -/
def Wx (c : Dev nD) : Valuation τ sig (Elt F) :=
  Function.update (V0 m c) (Proc.devRef .tc main_v6) ((dats m 0 c).arrAt 4 cfg0.N)
/-- And at the end: the four later operations have run. -/
def Wy (c : Dev nD) : Valuation τ sig (Elt F) := StableHlo.after hostOps1 (Wx m c)

theorem Wx_out (c : Dev nD) : Wx m c (Proc.devRef .tc main_v6) = (dats m 0 c).arrAt 4 cfg0.N := by
  unfold Wx; exact Function.update_self ..
theorem Wx_ne (c : Dev nD) (b : Ref sig .tc) (hb : b ≠ main_v6) : Wx m c (Proc.devRef .tc b) = V m c b := by
  unfold Wx; exact Function.update_of_ne (StableHlo.devRef_ne_of_ne hb) ..

/-- Every window's array at the exit is the exit valuation's: an input's array is never written. -/
theorem arrAtN_eq (c : Dev nD) (w : Fin cfg0.W) :
    (dats m 0 c).arrAt w cfg0.N = Wx m c (Proc.devRef .tc (Pipeline.arrRef spec0 w)) := by
  fin_cases w
  · exact ((dats m 0 c).arrAt_in 0 rfl _).trans ((A_eq m c 0).trans (Wx_ne m c main_arg0 (by decide)).symm)
  · exact ((dats m 0 c).arrAt_in 1 rfl _).trans ((A_eq m c 1).trans (Wx_ne m c main_arg0 (by decide)).symm)
  · exact ((dats m 0 c).arrAt_in 2 rfl _).trans ((A_eq m c 2).trans (Wx_ne m c main_v4 (by decide)).symm)
  · exact ((dats m 0 c).arrAt_in 3 rfl _).trans ((A_eq m c 3).trans (Wx_ne m c main_v5 (by decide)).symm)
  · exact (Wx_out m c).symm

/-- The four later operations write none of the windows' arrays. -/
theorem tail_keeps : ∀ op ∈ (hostOps1 : List (HloOp τ sig (Elt F))), ∀ w : Fin cfg0.W, Proc.devRef .tc (Pipeline.arrRef spec0 w) ∉ op.writes := by
  intro op hop
  simp only [hostOps1, List.mem_cons, List.mem_nil_iff, or_false] at hop
  rcases hop with rfl | rfl | rfl | rfl
  all_goals intro w; fin_cases w <;> simp only [StableHlo.nullary_writes, StableHlo.unary_writes, StableHlo.binary_writes, Finset.mem_singleton] <;> exact StableHlo.devRef_ne_of_ne (by decide)

theorem Wy_arr (c : Dev nD) (w : Fin cfg0.W) :
    Wy m c (Proc.devRef .tc (Pipeline.arrRef spec0 w)) = Wx m c (Proc.devRef .tc (Pipeline.arrRef spec0 w)) :=
  StableHlo.after_of_forall_not_mem (b := Proc.devRef .tc (Pipeline.arrRef spec0 w)) hostOps1 (Wx m c) (fun op hop => tail_keeps op hop w)

/-- The buffers that bypass the region hold at the exit what they held at the entry. -/
theorem rest_Wx (c : Dev nD) :
    (Pipeline.unscopedRest spec0 c (V m c) : sProp 𝕄) = Pipeline.unscopedRest spec0 c (fun b => Wx m c (Proc.devRef .tc b)) := by
  unfold Pipeline.unscopedRest
  exact bigSep_congr fun b hb => by
    dsimp only
    rw [Wx_ne m c b (fun e => (Finset.mem_sdiff.mp hb).2 (Finset.mem_image.mpr ⟨4, Finset.mem_univ _, e.symm⟩))]

/-- The region's exit, regrouped: the windows' arrays at their final contents and the bypassing buffers are every
    unscoped buffer held at the exit valuation (the two halves of the embeddings joined). -/
theorem exit_held (c : Dev nD) :
    (iprop((dats m 0 c).arrays ((dats m 0 c).arrAt · cfg0.N) ∗ Pipeline.unscopedRest spec0 c (V m c)) : sProp 𝕄)
      ⊣⊢ StableHlo.held (c : Thread nD τ) (Pipeline.ucRefs τ sig) (Wx m c) := by
  rw [← Pipeline.unscopedBufs_held, Pipeline.unscopedBufs_split₀ cfgs 0 winFacts₀0.arr_unscoped, rest_Wx,
    show ((dats m 0 c).arrAt · cfg0.N) = (fun w => Wx m c (Proc.devRef .tc (Pipeline.arrRef spec0 w))) from funext (arrAtN_eq m c)]
  exact ⟨sep_mono (arrBufs_arrays m c (fun b => Wx m c (Proc.devRef .tc b))).2 .rfl, sep_mono (arrBufs_arrays m c (fun b => Wx m c (Proc.devRef .tc b))).1 .rfl⟩

/-- The same at the end: the later operations changed none of the windows' arrays. -/
theorem end_held (c : Dev nD) :
    (iprop((dats m 0 c).arrays ((dats m 0 c).arrAt · cfg0.N) ∗ Pipeline.unscopedRest spec0 c (fun b => Wy m c (Proc.devRef .tc b))) : sProp 𝕄)
      ⊣⊢ StableHlo.held (c : Thread nD τ) (Pipeline.ucRefs τ sig) (Wy m c) := by
  rw [← Pipeline.unscopedBufs_held, Pipeline.unscopedBufs_split₀ cfgs 0 winFacts₀0.arr_unscoped,
    show ((dats m 0 c).arrAt · cfg0.N) = (fun w => Wy m c (Proc.devRef .tc (Pipeline.arrRef spec0 w))) from funext fun w => (arrAtN_eq m c w).trans (Wy_arr m c w).symm]
  exact ⟨sep_mono (arrBufs_arrays m c (fun b => Wy m c (Proc.devRef .tc b))).2 .rfl, sep_mono (arrBufs_arrays m c (fun b => Wy m c (Proc.devRef .tc b))).1 .rfl⟩

/-! ## The operations after the region -/

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option backward.isDefEq.respectTransparency.types false in
/-- From the region's exit the four later operations run over every unscoped buffer and hand the windows' arrays back
    unchanged, the bypassing buffers at the end valuation. -/
theorem htail (c : Dev nD) (Q' : PUnit → sProp 𝕄) :
    iprop((iprop((dats m 0 c).arrays ((dats m 0 c).arrAt · cfg0.N) ∗ Pipeline.unscopedRest spec0 c (fun b => Wy m c (Proc.devRef .tc b))) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  iintro ⟨Hk, Hb, Ha, Hz⟩
  ihave Hh := (exit_held m c).1 $$ [Ha Hz]
  · isplitl [Ha] <;> iassumption
  rw [show ([StableHlo.seq hostOps1] : List (Prog (TpuEff nD τ sig (Elt F) (Pipeline.Sig Λ₀ (Fin 1) fun p => ((cfgs p).toPCfg (Val := Elt F)).Adm) .tc) PUnit))
      = ([hostOps1].map StableHlo.seq ++ []) from rfl]
  iapply (Pipeline.wp_seqs_then (fun q => (cfgs q).toPCfg (Val := Elt F)) defs₀ Variants.none c (Pipeline.ucRefs τ sig) [] [hostOps1] tail_sub tail_fresh (Wx m c)) $$ [Hb Hh]
  · isplitl [Hb] <;> iassumption
  iintro Hb
  rw [Pipeline.chain_nil, wp_pure]
  imodintro
  iapply Hk
  icases Hb with ⟨-, H⟩
  iapply (end_held m c).2
  rw [show ([hostOps1] : List (List (HloOp τ sig (Elt F)))).flatten = hostOps1 from by simp only [List.flatten_cons, List.flatten_nil, List.append_nil]]
  iexact H

/-! ## The run -/

set_option backward.isDefEq.respectTransparency.types false in
/-- At the compiled mesh, for any float values, from any memory with zero counters: every weakly fair execution of
    @main on the TensorCores terminates, and every final state has every window's array at what the write-backs left
    and every other unscoped buffer at the end valuation. -/
theorem run_main : θ_run defs (onTc (τ := τ) (main (F := F))) (s₀ m ρ)
    (Pipeline.FramePost cfgs (dats m) 0 (fun c b => Wy m c (Proc.devRef .tc b))) := by
  classical
  exact Pipeline.θ_run_region_pf_tail (fun q => (cfgs q).toPCfg (Val := Elt F)) (fun q => (cfgs q).toPCfg_adm) (dats m) () cellOf_inj 0 winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrBufs_arrays m c (V m c)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wy m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact htail m c Q')
    (QY := fun c s => ∀ b ∈ Pipeline.restRefs sig spec0, s.mem ((c : Thread nD τ).loc b) = Wy m c (Proc.devRef .tc b))
    (hY := fun c s' => by
      rw [Pipeline.unscopedRestP_none]; unfold Pipeline.unscopedRest
      iintro ⟨-, HU, HSI⟩
      imodintro
      iapply (pointsTo_read_all (Pipeline.restRefs sig spec0) (fun b => (c : Thread nD τ).loc b) (fun b => Wy m c (Proc.devRef .tc b)) s')
      isplitl [HU] <;> iassumption)
    (hQ := fun s h c => ⟨(h c).1, (h c).2.2⟩)

end Cert.Kernel.Fr

end
-- ==== Proof.KB.Claim.lean ====
/-
  The frame claim from the run: no host operation writes an argument, the region writes only the output's array, so
  each argument ends as launched; and the result buffer ends at the end valuation's contents.
-/
import proofs.«419425_j26792005992921_3_alg».proof.Proof.KB.Launch

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The seven operations before the region write only their own results. -/
theorem prefix_keeps (b : Ref sig .tc) (hb : b ≠ main_v0 ∧ b ≠ main_v1 ∧ b ≠ main_v2 ∧ b ≠ main_cst ∧ b ≠ main_v3 ∧ b ≠ main_v4 ∧ b ≠ main_v5) :
    ∀ op ∈ (hostOps0 : List (HloOp τ sig (Elt F))), Proc.devRef .tc b ∉ op.writes := by
  obtain ⟨h0, h1, h2, h3, h4, h5, h6⟩ := hb
  intro op hop
  simp only [hostOps0, List.mem_cons, List.mem_nil_iff, or_false] at hop
  rcases hop with rfl | rfl | rfl | rfl | rfl | rfl | rfl <;>
    simp only [StableHlo.unary_writes, StableHlo.binary_writes, StableHlo.nullary_writes, Finset.mem_singleton] <;>
    exact StableHlo.devRef_ne_of_ne ‹_›

/-- The four after it likewise. -/
theorem suffix_keeps (b : Ref sig .tc) (hb : b ≠ main_cst_0 ∧ b ≠ main_v7 ∧ b ≠ main_cst_1 ∧ b ≠ main_v8) :
    ∀ op ∈ (hostOps1 : List (HloOp τ sig (Elt F))), Proc.devRef .tc b ∉ op.writes := by
  obtain ⟨h0, h1, h2, h3⟩ := hb
  intro op hop
  simp only [hostOps1, List.mem_cons, List.mem_nil_iff, or_false] at hop
  rcases hop with rfl | rfl | rfl | rfl <;>
    simp only [StableHlo.unary_writes, StableHlo.binary_writes, StableHlo.nullary_writes, Finset.mem_singleton] <;>
    exact StableHlo.devRef_ne_of_ne ‹_›

/-- A buffer the earlier operations do not write reaches the region as launched. -/
theorem V_kept (c : Dev nD) (b : Ref sig .tc) (hb : b ≠ main_v0 ∧ b ≠ main_v1 ∧ b ≠ main_v2 ∧ b ≠ main_cst ∧ b ≠ main_v3 ∧ b ≠ main_v4 ∧ b ≠ main_v5) :
    V m c b = m ((c : Thread nD τ).loc b) := by
  show StableHlo.after hostOps0 (fun b => m (c, b)) (Proc.devRef .tc b) = _
  exact StableHlo.after_of_forall_not_mem (b := Proc.devRef .tc b) hostOps0 _ (prefix_keeps b hb)

/-- A buffer neither stretch writes, and that is not the output's array, ends as launched. -/
theorem Wy_kept (c : Dev nD) (b : Ref sig .tc) (hb : b ≠ main_v0 ∧ b ≠ main_v1 ∧ b ≠ main_v2 ∧ b ≠ main_cst ∧ b ≠ main_v3 ∧ b ≠ main_v4 ∧ b ≠ main_v5)
    (hb' : b ≠ main_cst_0 ∧ b ≠ main_v7 ∧ b ≠ main_cst_1 ∧ b ≠ main_v8) (ho : b ≠ main_v6) :
    Wy m c (Proc.devRef .tc b) = m ((c : Thread nD τ).loc b) := by
  unfold Wy
  rw [StableHlo.after_of_forall_not_mem (b := Proc.devRef .tc b) hostOps1 (Wx m c) (suffix_keeps b hb'), Wx_ne m c b ho, V_kept m c b hb]

/-- THE FRAME: every weakly fair execution of @main terminates, nothing faulting, and the three argument arrays end
    unchanged; the result buffer ends at the end valuation's contents. -/
theorem frame_and_result : θ_run defs (onTc (τ := τ) (main (F := F))) ⟨m, fun _ => 0, ρ⟩ (fun r => ∀ c : Dev nD,
      r.2.mem ((c.tc : Thread nD τ).loc main_v8) = Wy m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v8 (Pipeline.mem_restRefs_of main_v8 rfl (by decide)),
     ((h c).1 0).trans (((dats m 0 c).arrAt_in 0 rfl _).trans ((A_eq m c 0).trans (V_kept m c main_arg0 (by decide)))),
     ((h c).2 main_arg1 (Pipeline.mem_restRefs_of main_arg1 rfl (by decide))).trans (Wy_kept m c main_arg1 (by decide) (by decide) (by decide)),
     ((h c).2 main_arg2 (Pipeline.mem_restRefs_of main_arg2 rfl (by decide))).trans (Wy_kept m c main_arg2 (by decide) (by decide) (by decide))⟩)
    (run_main m ρ)

/-- The frame claim's post alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (frame_and_result m ρ)

end Cert.Kernel.Fr

end
-- ==== Proof.KI.Base.lean ====
/-
  The frame of the kernel program, first module: what the runs of its body share.

  @main is seven host operations (the two halves of the embeddings sliced, multiplied and summed along the feature
  axis: the anchor column; the mask widened to words), ONE kernel region over a 4 × 8 grid, and four host operations
  (the column of row values summed and divided). The region's body keeps a column accumulator in a scratch buffer
  across the eight points of a row tile: zeroed at the first, added to at every one, and at the last read back through
  `log1p` into the output block. Two windows stage the same array (the embeddings: a row tile of it, and all of it).
  Here: the contents the region is entered with, @main reduced to the region continued by the later operations, each
  window's block at a point, the two branch conditions in closed form over the grid, where the output window is idle,
  and the staging memrefs by name.
-/
import proofs.«419425_j26792005992921_3_alg».proof.Proof.Gen.KernelIdeal.Launch
import proofs.«419425_j26792005992921_3_alg».proof.Proof.Gen.KernelIdeal.Skeleton
import proofs.«419425_j26792005992921_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the seven operations before it have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region CONTINUED BY the four later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The accumulator is zeroed when the column tile is the first: -/
abbrev cond0_0 (i : grid0.Coords) : Prop := (Scalar.cmpi .ne (Scalar.extui (Scalar.cmpi .eq (BitVec.ofNat 32 (i 1).val) 0#32)) 0#32) = 1#1
/-- at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The output block is stored when the column tile is the last: -/
abbrev cond0_1 (i : grid0.Coords) : Prop := k0_cond2 i = 1#1
/-- at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the output block is not stored the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The staging memrefs -/

/-- One staging buffer of the output window, through which its contents are stated. -/
abbrev VO0_4 : View sig .tc .vmem S1024x1 .f32 := (Memref.whole cc0_stg4_0 : Memref sig .tc .vmem S1024x1 .f32).view
/-- Each window's current staging memref at point `t`, as the pipeline passes it, and its wholeness. -/
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The accumulator: a whole scoped buffer of the kernel's own, passed beside the windows. -/
abbrev scM0_0 : Memref sig .tc .vmem S1024x1 .f32 := Memref.whole cc0_scratch0
abbrev VS0_0 : View sig .tc .vmem S1024x1 .f32 := scM0_0.view

/-- What the launch hands the region beside the windows: the accumulator owned at some contents, and the generator
    register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The body's run at the FIRST column tile of a row tile (the accumulator is zeroed, then the tile's column sums are
  added; the output block is not stored): on whole staging memrefs, the inputs' at their contents, the output's handed
  back untouched, the accumulator's at anything, the body runs to the continuation holding the inputs as they were and
  the accumulator with its stores written. The stores are the witness the run finds.
-/
import proofs.«419425_j26792005992921_3_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first column tile: `cond0_0` holds, `cond0_1` does not. -/
noncomputable def kernelRun0_A (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x256 .f32) (x1 : Vec F S8192x256 .f32) (x2 : Vec F S1024x1 .f32) (x3 : Vec F S1024x1024 .i32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__npair_kernel i arg2 harg2 arg3 harg3 arg4 harg4 arg5 harg5 arg6 harg6 arg7 harg7) K } := by
  refine ⟨[], ?_, fun xi4 E K => ?run⟩
  case run =>
    simp only [cc0__npair_kernel_eq_skeleton]; unfold cc0__npair_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KI.RunB.lean ====
/-
  The body's run at a MIDDLE column tile of a row tile (the tile's column sums are added to the accumulator the
  point before left; the output block is not stored): the accumulator enters at its known contents and ends with its
  store written; the output's memref is handed back untouched.
-/
import proofs.«419425_j26792005992921_3_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle column tile: neither condition holds. -/
noncomputable def kernelRun0_B (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x256 .f32) (x1 : Vec F S8192x256 .f32) (x2 : Vec F S1024x1 .f32) (x3 : Vec F S1024x1024 .i32) (xs0 : Vec F S1024x1 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__npair_kernel i arg2 harg2 arg3 harg3 arg4 harg4 arg5 harg5 arg6 harg6 arg7 harg7) K } := by
  refine ⟨[], ?_, fun xi4 E K => ?run⟩
  case run =>
    simp only [cc0__npair_kernel_eq_skeleton]; unfold cc0__npair_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KI.RunC.lean ====
/-
  The body's run at the LAST column tile of a row tile (the tile's column sums are added to the accumulator, and the
  accumulator is read back through log1p into the output block): the accumulator enters at its known contents, the
  output's memref at anything; both end with their stores written.
-/
import proofs.«419425_j26792005992921_3_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last column tile: `cond0_1` holds, `cond0_0` does not. -/
noncomputable def kernelRun0_C (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .f32) (x1 : Vec F S8192x256 .f32) (x2 : Vec F S1024x1 .f32) (x3 : Vec F S1024x1024 .i32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__npair_kernel i arg2 harg2 arg3 harg3 arg4 harg4 arg5 harg5 arg6 harg6 arg7 harg7) K } := by
  refine ⟨?_, ?_, fun E K => ?run⟩
  case run =>
    simp only [cc0__npair_kernel_eq_skeleton]; unfold cc0__npair_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.KI.Frame.lean ====
/-
  The frame of the kernel program, the body's half: what each case of the body leaves in the accumulator and in the
  output block, the accumulation point by point over the grid, the region's invariant (the accumulator at what the point
  before left), the pipeline's proof data, and the body obligation at every point.

  The embeddings reach the body through two windows (a row tile, and the whole table); each window holds the array at
  half of its share. The other two inputs and the output are held whole.
-/
import proofs.«419425_j26792005992921_3_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At the first column tile nothing is stored into the output block: a placeholder nothing consults. -/
def out0_A_4 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x256 .f32) (x1 : Vec F S8192x256 .f32) (x2 : Vec F S1024x1 .f32) (x3 : Vec F S1024x1024 .i32) : Vec F S1024x1 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- The first column tile's stores into the accumulator cover it. -/
theorem scover0_A_0 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x256 .f32) (x1 : Vec F S8192x256 .f32) (x2 : Vec F S1024x1 .f32) (x3 : Vec F S1024x1024 .i32) (y : S1024x1.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x1.size (by sl_kernel_rfl) y

/-- What the first column tile leaves in the accumulator. -/
def sout0_A_0 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x256 .f32) (x1 : Vec F S8192x256 .f32) (x2 : Vec F S1024x1 .f32) (x3 : Vec F S1024x1024 .i32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- At a middle column tile nothing is stored into the output block either. -/
def out0_B_4 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x256 .f32) (x1 : Vec F S8192x256 .f32) (x2 : Vec F S1024x1 .f32) (x3 : Vec F S1024x1024 .i32) (xs0 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

theorem scover0_B_0 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x256 .f32) (x1 : Vec F S8192x256 .f32) (x2 : Vec F S1024x1 .f32) (x3 : Vec F S1024x1024 .i32) (xs0 : Vec F S1024x1 .f32) (y : S1024x1.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x1.size (by sl_kernel_rfl) y

/-- What a middle column tile leaves in the accumulator, over what the point before left. -/
def sout0_B_0 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x256 .f32) (x1 : Vec F S8192x256 .f32) (x2 : Vec F S1024x1 .f32) (x3 : Vec F S1024x1024 .i32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- The last column tile's store into the output block covers it. -/
theorem cover0_C_4 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .f32) (x1 : Vec F S8192x256 .f32) (x2 : Vec F S1024x1 .f32) (x3 : Vec F S1024x1024 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1.size (by sl_kernel_rfl) y

/-- What the last column tile leaves in the output block. -/
def out0_C_4 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .f32) (x1 : Vec F S8192x256 .f32) (x2 : Vec F S1024x1 .f32) (x3 : Vec F S1024x1024 .i32) (xs0 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C_0 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .f32) (x1 : Vec F S8192x256 .f32) (x2 : Vec F S1024x1 .f32) (x3 : Vec F S1024x1024 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x1.size (by sl_kernel_rfl) y

/-- What the last column tile leaves in the accumulator. -/
def sout0_C_0 (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .f32) (x1 : Vec F S8192x256 .f32) (x2 : Vec F S1024x1 .f32) (x3 : Vec F S1024x1024 .i32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## The accumulation, point by point -/

/-- What the output block and the accumulator hold after the body at position `n` (a pair): the case the closed forms
    select at `n`, run at the point's memrefs and input blocks, the accumulator entering at what position `n - 1` left. -/
def outsAt0 (c : Dev nD) : (n : ℕ) → n < cfg0.N → Vec F S1024x1 .f32 × Vec F S1024x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at what
    the point before left in it; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The two halves of a full share. -/
abbrev shL : PosShare TreeShare := fullShare.left
abbrev shR : PosShare TreeShare := fullShare.right

/-- The proof data on core `c`: the arrays as the region finds them; after the body each input's buffer at its block
    and the output's at `outsAt0`; the invariant `PhiS`; nothing owed; the embeddings at one half share per window on
    them, the anchors and the mask whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => shL
    | ⟨1, _⟩ => shR
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; the closed forms say which case the point is in; the
    invariant hands the body the accumulator at what the point before left (at anything at the first point) and takes
    it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 8 = 7
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

end Cert.KernelIdeal.Fr

end
-- ==== Proof.KI.Pieces.lean ====
/-
  What each case of the body stores, as the body's own arithmetic of what it loaded: the accumulator ends at the
  accumulate term of the embeddings' rows of the point's column tile, the row tile, the anchors, the mask block and
  the accumulator as it entered (the zero column at a first column tile); at a last column tile the output block is
  `log1p` of that.
-/
import proofs.«419425_j26792005992921_3_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rows of the embeddings the point's column tile is multiplied against: 1024 rows from the tile's offset. -/
abbrev ekRows (i : grid0.Coords) (x1 : Vec F S8192x256 .f32) : Vec F S1024x256 .f32 :=
  View.ld x1 (Rect.unit (s := S8192x256) (k0_off1 i) S1024x256.size (k0_off1_inb i))

theorem hz : (![0, 0] : Fin 2 → Nat) = fun _ => 0 := by
  funext a; fin_cases a <;> rfl

/-- A middle column tile leaves the accumulator at the accumulate term over what it held. -/
theorem sout0_B_0_eq (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x256 .f32) (x1 : Vec F S8192x256 .f32) (x2 : Vec F S1024x1 .f32) (x3 : Vec F S1024x1024 .i32) (xs0 : Vec F S1024x1 .f32) :
    sout0_B_0 c i arg2 harg2 arg3 harg3 arg4 harg4 arg5 harg5 arg6 harg6 arg7 harg7 hc0 hc1 x0 x1 x2 x3 xs0 = k0_pay2 (ekRows i x1) x0 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg7.read_unread,
    View.ld_unit_zero (S := S1024x256) hz, View.ld_unit_zero (S := S1024x1) hz, View.ld_unit_zero (S := S1024x1024) hz]
  try rfl

/-- The last column tile leaves the accumulator likewise, -/
theorem sout0_C_0_eq (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .f32) (x1 : Vec F S8192x256 .f32) (x2 : Vec F S1024x1 .f32) (x3 : Vec F S1024x1024 .i32) (xs0 : Vec F S1024x1 .f32) :
    sout0_C_0 c i arg2 harg2 arg3 harg3 arg4 harg4 arg5 harg5 arg6 harg6 arg7 harg7 hc0 hc1 x0 x1 x2 x3 xs0 = k0_pay2 (ekRows i x1) x0 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.ld_unit_zero (S := S1024x256) hz, View.ld_unit_zero (S := S1024x1) hz, View.ld_unit_zero (S := S1024x1024) hz]
  try rfl

/-- and the output block at `log1p` of it. -/
theorem out0_C_4_eq (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .f32) (x1 : Vec F S8192x256 .f32) (x2 : Vec F S1024x1 .f32) (x3 : Vec F S1024x1024 .i32) (xs0 : Vec F S1024x1 .f32) :
    out0_C_4 c i arg2 harg2 arg3 harg3 arg4 harg4 arg5 harg5 arg6 harg6 arg7 harg7 hc0 hc1 x0 x1 x2 x3 xs0 = k0_pay3 (k0_pay2 (ekRows i x1) x0 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.readCov_unit_zero (S := S1024x1) _ hz,
    View.ld_unit_zero (S := S1024x256) hz, View.ld_unit_zero (S := S1024x1) hz, View.ld_unit_zero (S := S1024x1024) hz]
  try rfl

/-- A first column tile leaves the accumulator at the accumulate term over the zero column. -/
theorem sout0_A_0_eq (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x256 .f32) (x1 : Vec F S8192x256 .f32) (x2 : Vec F S1024x1 .f32) (x3 : Vec F S1024x1024 .i32) :
    sout0_A_0 c i arg2 harg2 arg3 harg3 arg4 harg4 arg5 harg5 arg6 harg6 arg7 harg7 hc0 hc1 x0 x1 x2 x3 = k0_pay2 (ekRows i x1) x0 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x1) hz]
  simp only [View.readAt_eq_ld, harg2.read_unread, harg3.read_unread, harg4.read_unread, harg5.read_unread, harg7.read_unread,
    View.readCov_unit_zero (S := S1024x1) _ hz,
    View.ld_unit_zero (S := S1024x256) hz, View.ld_unit_zero (S := S1024x1) hz, View.ld_unit_zero (S := S1024x1024) hz]
  try rfl

end Cert.KernelIdeal.Fr

end
-- ==== Proof.KI.Payload.lean ====
/-
  One grid point's three stored values, read at an index.

  At a grid point the kernel holds a row tile `v7 : [1024, 256]` of the embeddings, the rows `v6 : [1024, 256]` of one
  column tile, the anchors `v10 : [1024, 1]`, the mask's words `v15 : [1024, 1024]` and the accumulator `v24 : [1024, 1]`.
  It stores the zero column at the first column tile; at every tile the accumulator plus, row by row, the sum over the
  tile's columns of `exp (v7 · v6ᵀ − anchor)` where the mask word is not zero; and at the last tile `log (1 + ·)` of the
  accumulator. The product is a matrix product into a zero accumulator, so an entry is the inner product of two rows;
  the anchor column is broadcast along the rows; the columns' sum starts from the zero word, which adds nothing.
-/
import proofs.«419425_j26792005992921_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## Layout operations of a column, read at an index -/

section Column
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The mask words -/

/-- The kernel's test of a mask word — `(w ≠ 0)` widened to 32 bits and compared with zero again — is `w ≠ 0`. -/
theorem select_mask {α : Type} (w : BitVec 32) (x y : α) :
    Scalar.select (IntOp.cmpi .ne ((IntOp.cmpi .ne w 0#32).setWidth 32) 0#32) x y = if w ≠ 0#32 then x else y := by
  by_cases hw : w = 0#32
  · subst hw
    rw [if_neg (not_not.mpr rfl)]
    rfl
  · rw [if_pos hw]
    have e : IntOp.cmpi .ne w 0#32 = 1#1 := by
      unfold IntOp.cmpi
      show BitVec.ofBool (w != 0#32) = 1#1
      rw [bne_iff_ne.mpr hw]
      rfl
    rw [e]
    rfl

/-! ## The product of the row tile with the transposed column tile -/

theorem lhs_axis0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
theorem lhs_axis1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_axis0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_axis1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- The product into the zero accumulator, at `(p, q)`: the inner product of row `p` of the row tile with row `q` of
    the column tile. -/
theorem product_apply (v6 v7 : FVec Ideal S1024x256 .f32) (p q : Fin 1024) :
    matmul dot_S1024x256_S256x1024_S1024x1024_1_0_0_1_n_n (some .fp32) v7
        (transpose S256x1024 [1, 0] v6 transposes_S1024x256_p1_0_S256x1024) (constant (F := Ideal) S1024x1024 .f32 0x00000000#32) (ix2 p q)
      = ∑ d : Fin 256, v7 (ix2 p d) * v6 (ix2 q d) := by
  refine (Ideal.matmul_constant_zero_apply dot_S1024x256_S256x1024_S1024x1024_1_0_0_1_n_n (some .fp32) v7
    (transpose S256x1024 [1, 0] v6 transposes_S1024x256_p1_0_S256x1024) (ix2 p q)).trans ?_
  rw [← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p q)
      ((contrEquiv1 dot_S1024x256_S256x1024_S1024x1024_1_0_0_1_n_n 256 rfl rfl).symm k) = ix2 p k :=
    funext fun a => Fin.ext (by
      match a with
      | ⟨0, _⟩ => exact lhs_axis0 _ _
      | ⟨1, _⟩ => exact (lhs_axis1 _ _).trans hk)
  have er : dot_S1024x256_S256x1024_S1024x1024_1_0_0_1_n_n.rhsIdx (ix2 p q)
      ((contrEquiv1 dot_S1024x256_S256x1024_S1024x1024_1_0_0_1_n_n 256 rfl rfl).symm k) = ix2 k q :=
    funext fun a => Fin.ext (by
      match a with
      | ⟨0, _⟩ => exact (rhs_axis0 _ _).trans hk
      | ⟨1, _⟩ => exact rhs_axis1 _ _)
  rw [el, er, transpose_ix2_apply]

/-! ## The sum along the columns -/

/-- The sum of a `[1024, 1024]` tile along its columns from the zero word, at row `p`: the sum of the row's entries. -/
theorem rowsum_apply (src : FVec Ideal S1024x1024 .f32) (hφ : FKind.Formats .f32)
    (hacc : (0x00000000#32 : BitVec 32) = FKind.add.neutral .f32 hφ) (p : Fin 1024) :
    multiReduction .add [1] S1024 src 0x00000000#32 reduces_S1024x1024_S1024 hφ hacc (ix1 p) = ∑ q : Fin 1024, src (ix2 p q) := by
  refine (Ideal.multiReduction_add_single src 0x00000000#32 reduces_S1024x1024_S1024 hφ hacc (ix1 p)).trans ?_
  refine Finset.sum_congr rfl fun q _ => congrArg src (funext fun a => Fin.ext ?_)
  match a with
  | ⟨0, _⟩ => rfl
  | ⟨1, _⟩ => rfl

/-! ## The three stored values -/

/-- The value stored at the first column tile: the zero column. -/
theorem pay1_apply (p : Fin 1024) : k0_pay1 (F := Ideal) (ix2 p (0 : Fin 1)) = 0 := by
  unfold k0_pay1
  rw [shapeCast_self]
  exact Ideal.ofBits_zero_f32

/-- The accumulator after one column tile: what it held plus, over the tile's columns, `exp` of the product entry less
    the anchor where the mask word is not zero. -/
theorem pay2_apply (v6 v7 : Vec Ideal S1024x256 .f32) (v10 : Vec Ideal S1024x1 .f32) (v15 : Vec Ideal S1024x1024 .i32) (v24 : Vec Ideal S1024x1 .f32) (p : Fin 1024) :
    k0_pay2 v6 v7 v10 v15 v24 (ix2 p (0 : Fin 1))
      = v24 (ix2 p (0 : Fin 1)) + ∑ q : Fin 1024, (if v15 (ix2 p q) ≠ 0#32 then Ideal.exp ((∑ d : Fin 256, v7 (ix2 p d) * v6 (ix2 q d)) - v10 (ix2 p (0 : Fin 1))) else 0) := by
  unfold k0_pay2
  dsimp only
  rw [shapeCast_self, shapeCast_self]
  refine congrArg (v24 (ix2 p (0 : Fin 1)) + ·) ?_
  refine (shapeCast_a_a1_apply _ shapeCasts_S1024_S1024x1 p (0 : Fin 1)).trans ?_
  refine (rowsum_apply _ _ _ p).trans ?_
  refine Finset.sum_congr rfl fun q _ => ?_
  refine (select_mask (v15 (ix2 p q)) _ _).trans ?_
  refine if_congr Iff.rfl ?_ Ideal.ofBits_zero_f32
  show Ideal.exp (_ - _) = _
  rw [product_apply v6 v7 p q, broadcastTo_a1_ab_apply v10 broadcasts_S1024x1_S1024x1024 p q]

/-- The value stored at the last column tile: `log (1 + ·)` of the accumulator, entry by entry. -/
theorem pay3_apply (v : Vec Ideal S1024x1 .f32) (p : Fin 1024) : k0_pay3 v (ix2 p (0 : Fin 1)) = Ideal.log1p (v (ix2 p (0 : Fin 1))) := rfl

end Cert.KernelIdeal.Pay

end
-- ==== Proof.KI.Coords.lean ====
/-
  A grid point `t` of the 4 × 8 grid is row tile `t / 8`, column tile `t % 8`; inside it, block row `p` is row
  `1024 * (t / 8) + p` of the 4096 and block column `q` is column `1024 * (t % 8) + q` of the 8192.
-/
import proofs.«419425_j26792005992921_3_alg».proof.Proof.KI.Base

noncomputable section

namespace Cert.KernelIdeal.Fr

open Cert.KernelIdeal Cert.KernelIdeal.Gen Idealize.ShloMosaic

theorem N_lt (t : Fin cfg0.N) : t.val < 32 := lt_of_lt_of_eq t.isLt (show cfg0.N = 32 from N_0)

/-- The row of the 4096 that block row `p` of point `t` is. -/
def rowOf (t : Fin cfg0.N) (p : Fin 1024) : Fin 4096 := ⟨1024 * (t.val / 8) + p.val, by have := N_lt t; have := p.isLt; omega⟩
/-- The column of the 8192 that block column `q` of point `t` is. -/
def colOf (t : Fin cfg0.N) (q : Fin 1024) : Fin 8192 := ⟨1024 * (t.val % 8) + q.val, by have := q.isLt; omega⟩
/-- Column `q` of column tile `k`. -/
def colK (k : ℕ) (q : Fin 1024) : Fin 8192 := ⟨1024 * (k % 8) + q.val, by have := q.isLt; omega⟩

theorem colOf_eq (t : Fin cfg0.N) (q : Fin 1024) : colOf t q = colK (t.val % 8) q := by
  unfold colOf colK; congr 2; omega

end Cert.KernelIdeal.Fr

end
-- ==== Proof.KI.HostVals.lean ====
/-
  The frame of the kernel program, the values the region is entered with: what the seven host operations before
  the region leave in the arrays the windows stage, read index by index.

  No host operation writes an argument, so the region finds the three arguments as launched. A block of a window
  is its array read at (block index × block size + the coordinate inside the block) on each axis: window 0's block
  at point t is rows 1024·(t / 8) … of the embeddings, window 1's is all of them, window 2's and 3's are the same
  rows of the anchor column and of the widened mask, the latter at columns 1024·(t % 8) …; the body's own load off
  window 1 reads rows 1024·(t % 8) … . At the ideal values the anchor column at row r is the sum over the feature
  axis of the product of row r and row r + 4096 of the embeddings, and a widened mask word is nonzero exactly
  where the mask bit is set.
-/
import proofs.«419425_j26792005992921_3_alg».proof.Proof.KI.Base
import proofs.«419425_j26792005992921_3_alg».proof.Proof.KI.Coords
import proofs.«419425_j26792005992921_3_alg».proof.Proof.KI.Pieces
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Generic

variable {F : FTy → Type} [FloatOps F]
variable (m : (ℓ : Loc nD τ sig) → Buf (Elt F) ℓ)

/-! ## The arguments are as launched -/

/-- No operation before the region writes the reference `r` when `r` is none of their seven results. -/
theorem V_of_not_written (c : Dev nD) (r : Ref sig .tc)
    (h0 : r ≠ main_v0) (h1 : r ≠ main_v1) (h2 : r ≠ main_v2) (h3 : r ≠ main_cst) (h4 : r ≠ main_v3) (h5 : r ≠ main_v4)
    (h6 : r ≠ main_v5) : V m c r = m ((c : Thread nD τ).loc r) := by
  show StableHlo.after hostOps0 (fun b => m (c, b)) (Proc.devRef .tc r) = _
  refine StableHlo.after_of_forall_not_mem (b := Proc.devRef .tc r) _ _ (List.forall_iff_forall_mem.mp ?_)
  simp only [hostOps0, List.Forall, StableHlo.nullary_writes, StableHlo.unary_writes, StableHlo.binary_writes,
    Finset.mem_singleton]
  exact ⟨StableHlo.devRef_ne_of_ne h0, StableHlo.devRef_ne_of_ne h1, StableHlo.devRef_ne_of_ne h2,
    StableHlo.devRef_ne_of_ne h3, StableHlo.devRef_ne_of_ne h4, StableHlo.devRef_ne_of_ne h5, StableHlo.devRef_ne_of_ne h6⟩

theorem V_arg0 (c : Dev nD) : V m c main_arg0 = m ((c : Thread nD τ).loc main_arg0) :=
  V_of_not_written m c main_arg0 (by decide) (by decide) (by decide) (by decide) (by decide) (by decide) (by decide)
theorem V_arg1 (c : Dev nD) : V m c main_arg1 = m ((c : Thread nD τ).loc main_arg1) :=
  V_of_not_written m c main_arg1 (by decide) (by decide) (by decide) (by decide) (by decide) (by decide) (by decide)
theorem V_arg2 (c : Dev nD) : V m c main_arg2 = m ((c : Thread nD τ).loc main_arg2) :=
  V_of_not_written m c main_arg2 (by decide) (by decide) (by decide) (by decide) (by decide) (by decide) (by decide)

end Generic

section Blocks

variable {F : FTy → Type} [FloatOps F]
variable (m : (ℓ : Loc nD τ sig) → Buf (Elt F) ℓ)

/-! ## The windows' blocks as rows and columns of their arrays -/

/-- The printed index maps over the grid: the row-tile windows sit at block (t / 8, 0), the whole-array window at
    block (0, 0), the mask window at block (t / 8, t % 8). -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = t.val % 8 :=
  (by decide +kernel : ∀ t : Fin grid0.N, _)

/-- The body's own load off the whole-array window starts at row 1024 · (t % 8), column 0. -/
theorem off_facts : ∀ t : Fin cfg0.N,
    k0_off1 (grid0.coords t) (0 : Fin 2) = 1024 * (t.val % 8) ∧ k0_off1 (grid0.coords t) (1 : Fin 2) = 0 :=
  (by decide +kernel : ∀ t : Fin grid0.N, _)

/-- Window 0's block at point `t` is rows 1024 · (t / 8) … of the embeddings. -/
theorem iblk0_apply (c : Dev nD) (t : Fin cfg0.N) (p : Fin 1024) (d : Fin 256) :
    iblk m c 0 t (ix2 p d) = V m c main_arg0 (ix2 (⟨(rowOf t p).val, by have := (rowOf t p).isLt; omega⟩ : Fin 8192) d) := by
  obtain ⟨e0, e1, -⟩ := idx_facts t
  show V m c main_arg0 (((cfg0.win 0).blk t).view.emb (ix2 p d)) = V m c main_arg0 _
  refine congrArg _ (funext fun a => Fin.ext ?_)
  match a with
  | ⟨0, _⟩ => show win0_0.index t (0 : Fin 2) * 1024 + 1 * p.val = 1024 * (t.val / 8) + p.val; rw [e0]; omega
  | ⟨1, _⟩ => show win0_0.index t (1 : Fin 2) * 256 + 1 * d.val = d.val; rw [e1]; omega

/-- Window 1's block is the whole of the embeddings at every point. -/
theorem iblk1_eq (c : Dev nD) (t : Fin cfg0.N) : iblk m c 1 t = V m c main_arg0 := by
  obtain ⟨-, -, e0, e1, -⟩ := idx_facts t
  funext j
  show V m c main_arg0 (((cfg0.win 1).blk t).view.emb j) = V m c main_arg0 j
  refine congrArg _ (funext fun a => Fin.ext ?_)
  match a with
  | ⟨0, _⟩ => show win0_1.index t (0 : Fin 2) * 8192 + 1 * (j 0).val = (j 0).val; rw [e0]; omega
  | ⟨1, _⟩ => show win0_1.index t (1 : Fin 2) * 256 + 1 * (j 1).val = (j 1).val; rw [e1]; omega

/-- The rows the body loads off the whole-array window at point `t` are rows 1024 · (t % 8) … of it. -/
theorem ekRows_apply (t : Fin cfg0.N) (x1 : Vec F S8192x256 .f32) (q : Fin 1024) (d : Fin 256) :
    ekRows (grid0.coords t) x1 (ix2 q d) = x1 (ix2 (colOf t q) d) := by
  obtain ⟨e0, e1⟩ := off_facts t
  show x1 ((Rect.unit (s := S8192x256) (k0_off1 (grid0.coords t)) S1024x256.size (k0_off1_inb (grid0.coords t))).idx (ix2 q d)) = x1 _
  refine congrArg _ (funext fun a => Fin.ext ?_)
  match a with
  | ⟨0, _⟩ => show k0_off1 (grid0.coords t) (0 : Fin 2) + 1 * q.val = 1024 * (t.val % 8) + q.val; rw [e0]; omega
  | ⟨1, _⟩ => show k0_off1 (grid0.coords t) (1 : Fin 2) + 1 * d.val = d.val; rw [e1]; omega

/-- Window 2's block at point `t` is rows 1024 · (t / 8) … of the anchor column. -/
theorem iblk2_apply (c : Dev nD) (t : Fin cfg0.N) (p : Fin 1024) :
    iblk m c 2 t (ix2 p (0 : Fin 1)) = V m c main_v4 (ix2 (rowOf t p) (0 : Fin 1)) := by
  obtain ⟨-, -, -, -, e0, e1, -⟩ := idx_facts t
  show V m c main_v4 (((cfg0.win 2).blk t).view.emb (ix2 p (0 : Fin 1))) = V m c main_v4 _
  refine congrArg _ (funext fun a => Fin.ext ?_)
  match a with
  | ⟨0, _⟩ => show win0_2.index t (0 : Fin 2) * 1024 + 1 * p.val = 1024 * (t.val / 8) + p.val; rw [e0]; omega
  | ⟨1, _⟩ => show win0_2.index t (1 : Fin 2) * 1 + 1 * 0 = 0; rw [e1]

/-- Window 3's block at point `t` is rows 1024 · (t / 8) …, columns 1024 · (t % 8) … of the widened mask. -/
theorem iblk3_apply (c : Dev nD) (t : Fin cfg0.N) (p q : Fin 1024) :
    iblk m c 3 t (ix2 p q) = V m c main_v5 (ix2 (rowOf t p) (colOf t q)) := by
  obtain ⟨-, -, -, -, -, -, e0, e1⟩ := idx_facts t
  show V m c main_v5 (((cfg0.win 3).blk t).view.emb (ix2 p q)) = V m c main_v5 _
  refine congrArg _ (funext fun a => Fin.ext ?_)
  match a with
  | ⟨0, _⟩ => show win0_3.index t (0 : Fin 2) * 1024 + 1 * p.val = 1024 * (t.val / 8) + p.val; rw [e0]; omega
  | ⟨1, _⟩ => show win0_3.index t (1 : Fin 2) * 1024 + 1 * q.val = 1024 * (t.val % 8) + q.val; rw [e1]; omega

end Blocks

section AtIdeal

variable (m : (ℓ : Loc nD τ sig) → Buf (Elt Ideal) ℓ)

/-! ## The anchor column and the widened mask at the ideal values -/

/-- The embeddings on core `c` as launched, as a function of the index. -/
abbrev argE (c : Dev nD) : S8192x256.Idx → EReal := m ((c : Thread nD τ).loc main_arg0)
/-- The mask on core `c` as launched, as a function of the index. -/
abbrev argM (c : Dev nD) : S4096x8192.Idx → BitVec 1 := m ((c : Thread nD τ).loc main_arg2)

/-- The anchor column as the region finds it: the operations' term over the launched embeddings. -/
theorem V_v4_eq (c : Dev nD) : (V m c main_v4 : S4096x1.Idx → EReal) =
    broadcastInDim S4096x1 ![0] bcast_S4096_S4096x1_0
      (Host.reduceAdd (F := Ideal)
        (mulf (extractStridedSlice S4096x256 ![0, 0] (m ((c : Thread nD τ).loc main_arg0)) slices_S8192x256_S4096x256_0_0)
          (extractStridedSlice S4096x256 ![4096, 0] (m ((c : Thread nD τ).loc main_arg0)) slices_S8192x256_S4096x256_4096_0))
        (constant (F := Ideal) S_ .f32 0x00000000#32) reducesTo_S4096x256_S4096_d1 h_S_) := by
  show StableHlo.after hostOps0 (fun b => m (c, b)) (Proc.devRef .tc main_v4) = _
  after_results

/-- The widened mask as the region finds it: the launched mask, each bit zero-extended to a word. -/
theorem V_v5_eq (c : Dev nD) : (V m c main_v5 : S4096x8192.Idx → BitVec 32) =
    extui 32 (m ((c : Thread nD τ).loc main_arg2)) natLt_1_32 := by
  show StableHlo.after hostOps0 (fun b => m (c, b)) (Proc.devRef .tc main_v5) = _
  after_results

/-- The anchor column at row `r`: the sum over the feature axis of row `r` times row `r + 4096` of the embeddings. -/
theorem V_anchor (c : Dev nD) (r : Fin 4096) :
    V m c main_v4 (ix2 r (0 : Fin 1))
      = ∑ d : Fin 256, argE m c (ix2 (⟨r.val, by omega⟩ : Fin 8192) d) * argE m c (ix2 (⟨r.val + 4096, by omega⟩ : Fin 8192) d) := by
  show (V m c main_v4 : S4096x1.Idx → EReal) (ix2 r (0 : Fin 1)) = _
  have hred : S4096x256.Reduces [1] S4096 := by decide
  rw [V_v4_eq]
  rw [broadcastInDim_apply _ _ _ (ix2 r (0 : Fin 1)) (ix1 r) (fun a => by match a with | ⟨0, _⟩ => rfl)]
  show Ideal.hostReduceAdd reducesTo_S4096x256_S4096_d1 _ _ (ix1 r) = _
  rw [Ideal.hostReduceAdd_single reducesTo_S4096x256_S4096_d1 hred]
  rw [constant_apply, Ideal.ofBits_zero_f32, zero_add]
  refine Finset.sum_congr rfl fun d _ => ?_
  rw [mulf_apply]
  congr 1
  · refine extractStridedSlice_apply _ _ _ _ _ fun a => ?_
    match a with
    | ⟨0, _⟩ => show r.val = 0 + r.val; omega
    | ⟨1, _⟩ => show d.val = 0 + d.val; omega
  · refine extractStridedSlice_apply _ _ _ _ _ fun a => ?_
    match a with
    | ⟨0, _⟩ => show r.val + 4096 = 4096 + r.val; omega
    | ⟨1, _⟩ => show d.val = 0 + d.val; omega

/-- A one-bit word zero-extended is nonzero exactly when the bit is set. -/
theorem setWidth_ne_zero_iff (b : BitVec 1) : b.setWidth 32 ≠ 0#32 ↔ b = 1#1 := by
  rcases BitVec.eq_zero_or_eq_one b with rfl | rfl <;> decide

/-- The widened mask word at (r, j) is nonzero exactly where the mask bit is set. -/
theorem V_mask (c : Dev nD) (r : Fin 4096) (j : Fin 8192) :
    V m c main_v5 (ix2 r j) ≠ 0#32 ↔ argM m c (ix2 r j) = 1#1 := by
  show (V m c main_v5 : S4096x8192.Idx → BitVec 32) (ix2 r j) ≠ 0#32 ↔ _
  rw [V_v5_eq, extui_apply]
  exact setWidth_ne_zero_iff _

end AtIdeal

end Cert.KernelIdeal.Fr

end
-- ==== Proof.KI.Launch.lean ====
/-
  The frame of the kernel program, the launch: @main's run from the body obligation.

  The embeddings' buffer stands behind two windows. At the region's entry its full share is dealt to them half and
  half; at the exit both halves come back at the contents they were given (neither window is written), are joined
  again, and the four operations after the region run over every unscoped buffer: the output's array at what the
  write-backs left in it, everything else as the region found it. The run's post reads every unscoped buffer at the
  end: the contents after those four operations.
-/
import proofs.«419425_j26792005992921_3_alg».proof.Proof.KI.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers behind the windows, and the windows' arrays at their shares -/

/-- The four buffers behind the five windows, one by one. -/
theorem arrBufs0_eq (c : Dev nD) (Wv : (b : Ref sig .tc) → Buf (Elt F) ((c : Thread nD τ).loc b)) :
    (Pipeline.arrBufs spec0 c Wv : sProp 𝕄)
      = iprop((((c : Thread nD τ).loc main_arg0) ↦{fullShare} Wv main_arg0) ∗ (((c : Thread nD τ).loc main_v4) ↦{fullShare} Wv main_v4)
          ∗ (((c : Thread nD τ).loc main_v5) ↦{fullShare} Wv main_v5) ∗ (((c : Thread nD τ).loc main_v6) ↦{fullShare} Wv main_v6)) := by
  unfold Pipeline.arrBufs
  exact bigSep_eq_bigSepL_of_eq [main_arg0, main_v4, main_v5, main_v6] (by decide) (by decide) _

/-- The windows' arrays at contents read off a valuation of the buffers, one by one: the embeddings at a half share
    for each of the two windows on them. -/
theorem arrays0_eq (c : Dev nD) (Wv : (b : Ref sig .tc) → Buf (Elt F) ((c : Thread nD τ).loc b)) :
    ((dats m 0 c).arrays (fun w => Wv (Pipeline.arrRef spec0 w)) : sProp 𝕄)
      = iprop((((c : Thread nD τ).loc main_arg0) ↦{shL} Wv main_arg0) ∗ (((c : Thread nD τ).loc main_arg0) ↦{shR} Wv main_arg0)
          ∗ (((c : Thread nD τ).loc main_v4) ↦{fullShare} Wv main_v4) ∗ (((c : Thread nD τ).loc main_v5) ↦{fullShare} Wv main_v5)
          ∗ (((c : Thread nD τ).loc main_v6) ↦{fullShare} Wv main_v6)) := by
  unfold Dat.arrays
  rw [bigSep_W0, (arr_whole0 0).set_eq_univ, (arr_whole0 2).set_eq_univ, (arr_whole0 3).set_eq_univ, (arr_whole0 4).set_eq_univ]
  rfl

/-- Dealing the embeddings' full share to the two windows on them, and joining the halves again. -/
theorem arrBufs_arrays (c : Dev nD) (Wv : (b : Ref sig .tc) → Buf (Elt F) ((c : Thread nD τ).loc b)) :
    (Pipeline.arrBufs spec0 c Wv : sProp 𝕄) ⊣⊢ (dats m 0 c).arrays (fun w => Wv (Pipeline.arrRef spec0 w)) := by
  rw [arrBufs0_eq, arrays0_eq]
  constructor
  · iintro ⟨H0, H2, H3, H4⟩
    ihave H01 := (pointsTo_share (PosShare.mem_left_op_right fullShare)).1 $$ H0
    icases H01 with ⟨Ha, Hb⟩
    isplitl [Ha]; · iexact Ha
    isplitl [Hb]; · iexact Hb
    isplitl [H2]; · iexact H2
    isplitl [H3]; · iexact H3
    iexact H4
  · iintro ⟨Ha, Hb, H2, H3, H4⟩
    isplitl [Ha Hb]
    · iapply (pointsTo_share (PosShare.mem_left_op_right fullShare)).2
      isplitl [Ha]; · iexact Ha
      iexact Hb
    isplitl [H2]; · iexact H2
    isplitl [H3]; · iexact H3
    iexact H4

/-! ## The contents at the region's exit and at the end -/

/-- Core `c`'s contents when the region is left: the output's array at what the write-backs left in it, every other
    buffer as the region found it. -/
def Wx (c : Dev nD) : Valuation τ sig (Elt F) :=
  Function.update (V0 m c) (Proc.devRef .tc main_v6) ((dats m 0 c).arrAt 4 cfg0.N)
/-- And at the end: the four later operations have run. -/
def Wy (c : Dev nD) : Valuation τ sig (Elt F) := StableHlo.after hostOps1 (Wx m c)

theorem Wx_out (c : Dev nD) : Wx m c (Proc.devRef .tc main_v6) = (dats m 0 c).arrAt 4 cfg0.N := by
  unfold Wx; exact Function.update_self ..
theorem Wx_ne (c : Dev nD) (b : Ref sig .tc) (hb : b ≠ main_v6) : Wx m c (Proc.devRef .tc b) = V m c b := by
  unfold Wx; exact Function.update_of_ne (StableHlo.devRef_ne_of_ne hb) ..

/-- Every window's array at the exit is the exit valuation's: an input's array is never written. -/
theorem arrAtN_eq (c : Dev nD) (w : Fin cfg0.W) :
    (dats m 0 c).arrAt w cfg0.N = Wx m c (Proc.devRef .tc (Pipeline.arrRef spec0 w)) := by
  fin_cases w
  · exact ((dats m 0 c).arrAt_in 0 rfl _).trans ((A_eq m c 0).trans (Wx_ne m c main_arg0 (by decide)).symm)
  · exact ((dats m 0 c).arrAt_in 1 rfl _).trans ((A_eq m c 1).trans (Wx_ne m c main_arg0 (by decide)).symm)
  · exact ((dats m 0 c).arrAt_in 2 rfl _).trans ((A_eq m c 2).trans (Wx_ne m c main_v4 (by decide)).symm)
  · exact ((dats m 0 c).arrAt_in 3 rfl _).trans ((A_eq m c 3).trans (Wx_ne m c main_v5 (by decide)).symm)
  · exact (Wx_out m c).symm

/-- The four later operations write none of the windows' arrays. -/
theorem tail_keeps : ∀ op ∈ (hostOps1 : List (HloOp τ sig (Elt F))), ∀ w : Fin cfg0.W, Proc.devRef .tc (Pipeline.arrRef spec0 w) ∉ op.writes := by
  intro op hop
  simp only [hostOps1, List.mem_cons, List.mem_nil_iff, or_false] at hop
  rcases hop with rfl | rfl | rfl | rfl
  all_goals intro w; fin_cases w <;> simp only [StableHlo.nullary_writes, StableHlo.unary_writes, StableHlo.binary_writes, Finset.mem_singleton] <;> exact StableHlo.devRef_ne_of_ne (by decide)

theorem Wy_arr (c : Dev nD) (w : Fin cfg0.W) :
    Wy m c (Proc.devRef .tc (Pipeline.arrRef spec0 w)) = Wx m c (Proc.devRef .tc (Pipeline.arrRef spec0 w)) :=
  StableHlo.after_of_forall_not_mem (b := Proc.devRef .tc (Pipeline.arrRef spec0 w)) hostOps1 (Wx m c) (fun op hop => tail_keeps op hop w)

/-- The buffers that bypass the region hold at the exit what they held at the entry. -/
theorem rest_Wx (c : Dev nD) :
    (Pipeline.unscopedRest spec0 c (V m c) : sProp 𝕄) = Pipeline.unscopedRest spec0 c (fun b => Wx m c (Proc.devRef .tc b)) := by
  unfold Pipeline.unscopedRest
  exact bigSep_congr fun b hb => by
    dsimp only
    rw [Wx_ne m c b (fun e => (Finset.mem_sdiff.mp hb).2 (Finset.mem_image.mpr ⟨4, Finset.mem_univ _, e.symm⟩))]

/-- The region's exit, regrouped: the windows' arrays at their final contents and the bypassing buffers are every
    unscoped buffer held at the exit valuation (the two halves of the embeddings joined). -/
theorem exit_held (c : Dev nD) :
    (iprop((dats m 0 c).arrays ((dats m 0 c).arrAt · cfg0.N) ∗ Pipeline.unscopedRest spec0 c (V m c)) : sProp 𝕄)
      ⊣⊢ StableHlo.held (c : Thread nD τ) (Pipeline.ucRefs τ sig) (Wx m c) := by
  rw [← Pipeline.unscopedBufs_held, Pipeline.unscopedBufs_split₀ cfgs 0 winFacts₀0.arr_unscoped, rest_Wx,
    show ((dats m 0 c).arrAt · cfg0.N) = (fun w => Wx m c (Proc.devRef .tc (Pipeline.arrRef spec0 w))) from funext (arrAtN_eq m c)]
  exact ⟨sep_mono (arrBufs_arrays m c (fun b => Wx m c (Proc.devRef .tc b))).2 .rfl, sep_mono (arrBufs_arrays m c (fun b => Wx m c (Proc.devRef .tc b))).1 .rfl⟩

/-- The same at the end: the later operations changed none of the windows' arrays. -/
theorem end_held (c : Dev nD) :
    (iprop((dats m 0 c).arrays ((dats m 0 c).arrAt · cfg0.N) ∗ Pipeline.unscopedRest spec0 c (fun b => Wy m c (Proc.devRef .tc b))) : sProp 𝕄)
      ⊣⊢ StableHlo.held (c : Thread nD τ) (Pipeline.ucRefs τ sig) (Wy m c) := by
  rw [← Pipeline.unscopedBufs_held, Pipeline.unscopedBufs_split₀ cfgs 0 winFacts₀0.arr_unscoped,
    show ((dats m 0 c).arrAt · cfg0.N) = (fun w => Wy m c (Proc.devRef .tc (Pipeline.arrRef spec0 w))) from funext fun w => (arrAtN_eq m c w).trans (Wy_arr m c w).symm]
  exact ⟨sep_mono (arrBufs_arrays m c (fun b => Wy m c (Proc.devRef .tc b))).2 .rfl, sep_mono (arrBufs_arrays m c (fun b => Wy m c (Proc.devRef .tc b))).1 .rfl⟩

/-! ## The operations after the region -/

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option backward.isDefEq.respectTransparency.types false in
/-- From the region's exit the four later operations run over every unscoped buffer and hand the windows' arrays back
    unchanged, the bypassing buffers at the end valuation. -/
theorem htail (c : Dev nD) (Q' : PUnit → sProp 𝕄) :
    iprop((iprop((dats m 0 c).arrays ((dats m 0 c).arrAt · cfg0.N) ∗ Pipeline.unscopedRest spec0 c (fun b => Wy m c (Proc.devRef .tc b))) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  iintro ⟨Hk, Hb, Ha, Hz⟩
  ihave Hh := (exit_held m c).1 $$ [Ha Hz]
  · isplitl [Ha] <;> iassumption
  rw [show ([StableHlo.seq hostOps1] : List (Prog (TpuEff nD τ sig (Elt F) (Pipeline.Sig Λ₀ (Fin 1) fun p => ((cfgs p).toPCfg (Val := Elt F)).Adm) .tc) PUnit))
      = ([hostOps1].map StableHlo.seq ++ []) from rfl]
  iapply (Pipeline.wp_seqs_then (fun q => (cfgs q).toPCfg (Val := Elt F)) defs₀ Variants.none c (Pipeline.ucRefs τ sig) [] [hostOps1] tail_sub tail_fresh (Wx m c)) $$ [Hb Hh]
  · isplitl [Hb] <;> iassumption
  iintro Hb
  rw [Pipeline.chain_nil, wp_pure]
  imodintro
  iapply Hk
  icases Hb with ⟨-, H⟩
  iapply (end_held m c).2
  rw [show ([hostOps1] : List (List (HloOp τ sig (Elt F)))).flatten = hostOps1 from by simp only [List.flatten_cons, List.flatten_nil, List.append_nil]]
  iexact H

/-! ## The run -/

set_option backward.isDefEq.respectTransparency.types false in
/-- At the compiled mesh, for any float values, from any memory with zero counters: every weakly fair execution of
    @main on the TensorCores terminates, and every final state has every window's array at what the write-backs left
    and every other unscoped buffer at the end valuation. -/
theorem run_main : θ_run defs (onTc (τ := τ) (main (F := F))) (s₀ m ρ)
    (Pipeline.FramePost cfgs (dats m) 0 (fun c b => Wy m c (Proc.devRef .tc b))) := by
  classical
  exact Pipeline.θ_run_region_pf_tail (fun q => (cfgs q).toPCfg (Val := Elt F)) (fun q => (cfgs q).toPCfg_adm) (dats m) () cellOf_inj 0 winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrBufs_arrays m c (V m c)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wy m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact htail m c Q')
    (QY := fun c s => ∀ b ∈ Pipeline.restRefs sig spec0, s.mem ((c : Thread nD τ).loc b) = Wy m c (Proc.devRef .tc b))
    (hY := fun c s' => by
      rw [Pipeline.unscopedRestP_none]; unfold Pipeline.unscopedRest
      iintro ⟨-, HU, HSI⟩
      imodintro
      iapply (pointsTo_read_all (Pipeline.restRefs sig spec0) (fun b => (c : Thread nD τ).loc b) (fun b => Wy m c (Proc.devRef .tc b)) s')
      isplitl [HU] <;> iassumption)
    (hQ := fun s h c => ⟨(h c).1, (h c).2.2⟩)

end Cert.KernelIdeal.Fr

end
-- ==== Proof.KI.TailValue.lean ====
/-
  The kernel program's result at the end of its run.

  After the region four operations run: a zero constant, the sum of the output's `[4096, 1]` array over both axes from
  that zero, the float 4096, and their quotient. Read at the result's one index this is the mean of the array's 4096
  entries: the sum over the rank-2 index set is the sum over the rows of the sum over the one column.
-/
import proofs.«419425_j26792005992921_3_alg».proof.Proof.KI.Launch
import Idealize.ShloMosaic.Lib.StableHlo.Run
import Idealize.ShloMosaic.Lib.ValueIdx
import Idealize.ShloMosaic.PureOps.Ideal.Laws

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The four operations after the region, on any contents of the output's array: the entries' sum from zero, divided by
    the float 4096. The sum over the column's index set is the sum over its rows, the one column a single term. -/
theorem mean_apply (A : (⟨S4096x1, .f32⟩ : BufTy).Contents (Elt Ideal)) :
    Host.divf (F := Ideal) (Host.reduceAdd (F := Ideal) A (constant (F := Ideal) S_ .f32 0x00000000#32) reducesTo_S4096x1_S_d0_1 h_S_)
        (constant (F := Ideal) S_ .f32 0x45800000#32)
      = fun _ => Ideal.div (0 + ∑ r : Fin 4096, A (Idealize.ShloMosaic.ValueIdx.ix2 r (0 : Fin 1))) (Ideal.ofBits .f32 0x45800000#32) := by
  funext i
  show FloatOps.hostDivf _ _ = _
  simp only [Host.reduceAdd, Ideal.hostReduceAdd_def, Ideal.hostDivf_def]
  rw [Ideal.hostReduceAdd_total reducesTo_S4096x1_S_d0_1 (fun b => b.elim0)]
  show Ideal.div (Ideal.ofBits .f32 0x00000000#32 + _) (Ideal.ofBits .f32 0x45800000#32) = _
  rw [Ideal.ofBits_zero_f32, Idealize.ShloMosaic.ValueIdx.sum_idx2]
  simp only [Fin.sum_univ_one]

variable (m : (ℓ : Loc nD τ sig) → Buf (Elt Ideal) ℓ)

/-- The result buffer at the end: the mean of the output's array as the write-backs left it. -/
theorem tail_value (c : Dev nD) : Wy m c (Proc.devRef .tc main_v8) = fun _ => Ideal.div (0 + Finset.sum (M := EReal) Finset.univ (fun r : Fin 4096 => (dats m 0 c).arrAt 4 cfg0.N (Idealize.ShloMosaic.ValueIdx.ix2 r (0 : Fin 1)))) (Ideal.ofBits .f32 0x45800000#32) := by
  unfold Wy
  show StableHlo.after hostOps1 (Wx m c) (Proc.devRef .tc main_v8) = _
  after_results
  rw [Wx_out]
  exact mean_apply _

end Cert.KernelIdeal.Fr

end
-- ==== Proof.KI.Cover.lean ====
/-
  The output's array after the region, row by row.

  The output window's blocks are the four row tiles of the `[4096, 1]` array; block `t / 8` is written back at the
  last column tile's point of its row tile, `t % 8 = 7`. Those four blocks tile the array: row `r` lies in the block of
  point `8 * (r / 1024) + 7`, at block row `r % 1024`. So whatever those points write back, row by row, is what the
  array holds when the region is left.
-/
import proofs.«419425_j26792005992921_3_alg».proof.Proof.KI.Launch
import proofs.«419425_j26792005992921_3_alg».proof.Proof.KI.Coords
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The output window's block index at grid point `t`: row tile `t / 8`, the one column. -/
theorem out_index : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- An index of the output's array is in point `t`'s block iff each coordinate is in the block's range on its axis. -/
theorem mem_out_blk (t : Fin cfg0.N) (i : S4096x1.Idx) :
    i ∈ ((cfg0.win 4).blk t).view.set
      ↔ ∀ a : Fin 2, win0_4.index t a * S1024x1.size a ≤ (i a).val ∧ (i a).val < win0_4.index t a * S1024x1.size a + S1024x1.size a := by
  show i ∈ ((View.whole main_v6).slice (win0_4.rect t)).set ↔ _
  rw [View.set_slice_whole, Rect.mem_set_unit]
  exact Iff.rfl

/-- Every row of the output's array lies in the block of the last column tile's point of its row tile. -/
theorem out_cover (i : S4096x1.Idx) : ∃ t : Fin cfg0.N, (cfg0.win 4).flush t = true ∧ i ∈ ((cfg0.win 4).blk t).view.set := by
  have hN : cfg0.N = 32 := N_0
  have hi0 : (i 0).val < 4096 := (i 0).isLt
  have hi1 : (i 1).val < 1 := (i 1).isLt
  refine ⟨⟨8 * ((i 0).val / 1024) + 7, by rw [hN]; omega⟩, (flush0_4 _).mpr (by show (8 * ((i 0).val / 1024) + 7) % 8 = 7; omega), ?_⟩
  rw [mem_out_blk]
  intro a
  match a with
  | ⟨0, _⟩ =>
    show win0_4.index _ (0 : Fin 2) * 1024 ≤ (i 0).val ∧ (i 0).val < win0_4.index _ (0 : Fin 2) * 1024 + 1024
    rw [(out_index _).1]
    show (8 * ((i 0).val / 1024) + 7) / 8 * 1024 ≤ (i 0).val ∧ (i 0).val < (8 * ((i 0).val / 1024) + 7) / 8 * 1024 + 1024
    omega
  | ⟨1, _⟩ =>
    show win0_4.index _ (1 : Fin 2) * 1 ≤ (i 1).val ∧ (i 1).val < win0_4.index _ (1 : Fin 2) * 1 + 1
    rw [(out_index _).2]
    omega

variable (m : (ℓ : Loc nD τ sig) → Buf (Elt Ideal) ℓ)

/-- The output's array when the region is left: row `r` holds what the last column tile's point of its row tile
    wrote back for it. -/
theorem out_final (c : Dev nD) (R : Fin 4096 → EReal)
    (hrow : ∀ (t : Fin cfg0.N), t.val % 8 = 7 → ∀ p : Fin 1024, ((outsAt0 m c t.val t.isLt).1 (ix2 p (0 : Fin 1)) : EReal) = R (rowOf t p)) :
    ∀ r : Fin 4096, ((dats m 0 c).arrAt 4 cfg0.N (ix2 r (0 : Fin 1)) : EReal) = R r := by
  have key : (dats m 0 c).arrAt 4 cfg0.N = (fun i : S4096x1.Idx => R (i 0)) := by
    refine (dats m 0 c).arrAt_eq_of_cover 4 (fun i : S4096x1.Idx => R (i 0)) ?_ out_cover
    intro t hf
    have h7 : t.val % 8 = 7 := (flush0_4 t).mp hf
    show (cfg0.win 4).cut (grid0.coords t) ((dats m 0 c).after 4 t) = _
    rw [after0_4]
    funext y
    have hy0 : (y 0).val < 1024 := (y 0).isLt
    have hy1 : (y 1).val < 1 := (y 1).isLt
    have ey : (cfg0.win 4).xinj (grid0.coords t) y = ix2 (⟨(y 0).val, hy0⟩ : Fin 1024) (0 : Fin 1) :=
      funext fun a => Fin.ext (by
        match a with
        | ⟨0, _⟩ => rfl
        | ⟨1, _⟩ => show (y 1).val = 0; omega)
    show (outsAt0 m c t.val t.isLt).1 ((cfg0.win 4).xinj (grid0.coords t) y) = R ((((cfg0.win 4).blk t).view.emb y) 0)
    rw [ey, hrow t h7]
    refine congrArg R (Fin.ext ?_)
    show 1024 * (t.val / 8) + (y 0).val = win0_4.index t (0 : Fin 2) * 1024 + 1 * (y 0).val
    rw [(out_index t).1]
    omega
  intro r
  rw [key]

end Cert.KernelIdeal.Fr

end
-- ==== Proof.KI.Claim.lean ====
/-
  The frame claim from the run: no host operation writes an argument, the region writes only the output's array, so
  each argument ends as launched; and the result buffer ends at the end valuation's contents.
-/
import proofs.«419425_j26792005992921_3_alg».proof.Proof.KI.Launch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The seven operations before the region write only their own results. -/
theorem prefix_keeps (b : Ref sig .tc) (hb : b ≠ main_v0 ∧ b ≠ main_v1 ∧ b ≠ main_v2 ∧ b ≠ main_cst ∧ b ≠ main_v3 ∧ b ≠ main_v4 ∧ b ≠ main_v5) :
    ∀ op ∈ (hostOps0 : List (HloOp τ sig (Elt F))), Proc.devRef .tc b ∉ op.writes := by
  obtain ⟨h0, h1, h2, h3, h4, h5, h6⟩ := hb
  intro op hop
  simp only [hostOps0, List.mem_cons, List.mem_nil_iff, or_false] at hop
  rcases hop with rfl | rfl | rfl | rfl | rfl | rfl | rfl <;>
    simp only [StableHlo.unary_writes, StableHlo.binary_writes, StableHlo.nullary_writes, Finset.mem_singleton] <;>
    exact StableHlo.devRef_ne_of_ne ‹_›

/-- The four after it likewise. -/
theorem suffix_keeps (b : Ref sig .tc) (hb : b ≠ main_cst_0 ∧ b ≠ main_v7 ∧ b ≠ main_cst_1 ∧ b ≠ main_v8) :
    ∀ op ∈ (hostOps1 : List (HloOp τ sig (Elt F))), Proc.devRef .tc b ∉ op.writes := by
  obtain ⟨h0, h1, h2, h3⟩ := hb
  intro op hop
  simp only [hostOps1, List.mem_cons, List.mem_nil_iff, or_false] at hop
  rcases hop with rfl | rfl | rfl | rfl <;>
    simp only [StableHlo.unary_writes, StableHlo.binary_writes, StableHlo.nullary_writes, Finset.mem_singleton] <;>
    exact StableHlo.devRef_ne_of_ne ‹_›

/-- A buffer the earlier operations do not write reaches the region as launched. -/
theorem V_kept (c : Dev nD) (b : Ref sig .tc) (hb : b ≠ main_v0 ∧ b ≠ main_v1 ∧ b ≠ main_v2 ∧ b ≠ main_cst ∧ b ≠ main_v3 ∧ b ≠ main_v4 ∧ b ≠ main_v5) :
    V m c b = m ((c : Thread nD τ).loc b) := by
  show StableHlo.after hostOps0 (fun b => m (c, b)) (Proc.devRef .tc b) = _
  exact StableHlo.after_of_forall_not_mem (b := Proc.devRef .tc b) hostOps0 _ (prefix_keeps b hb)

/-- A buffer neither stretch writes, and that is not the output's array, ends as launched. -/
theorem Wy_kept (c : Dev nD) (b : Ref sig .tc) (hb : b ≠ main_v0 ∧ b ≠ main_v1 ∧ b ≠ main_v2 ∧ b ≠ main_cst ∧ b ≠ main_v3 ∧ b ≠ main_v4 ∧ b ≠ main_v5)
    (hb' : b ≠ main_cst_0 ∧ b ≠ main_v7 ∧ b ≠ main_cst_1 ∧ b ≠ main_v8) (ho : b ≠ main_v6) :
    Wy m c (Proc.devRef .tc b) = m ((c : Thread nD τ).loc b) := by
  unfold Wy
  rw [StableHlo.after_of_forall_not_mem (b := Proc.devRef .tc b) hostOps1 (Wx m c) (suffix_keeps b hb'), Wx_ne m c b ho, V_kept m c b hb]

/-- THE FRAME: every weakly fair execution of @main terminates, nothing faulting, and the three argument arrays end
    unchanged; the result buffer ends at the end valuation's contents. -/
theorem frame_and_result : θ_run defs (onTc (τ := τ) (main (F := F))) ⟨m, fun _ => 0, ρ⟩ (fun r => ∀ c : Dev nD,
      r.2.mem ((c.tc : Thread nD τ).loc main_v8) = Wy m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v8 (Pipeline.mem_restRefs_of main_v8 rfl (by decide)),
     ((h c).1 0).trans (((dats m 0 c).arrAt_in 0 rfl _).trans ((A_eq m c 0).trans (V_kept m c main_arg0 (by decide)))),
     ((h c).2 main_arg1 (Pipeline.mem_restRefs_of main_arg1 rfl (by decide))).trans (Wy_kept m c main_arg1 (by decide) (by decide) (by decide)),
     ((h c).2 main_arg2 (Pipeline.mem_restRefs_of main_arg2 rfl (by decide))).trans (Wy_kept m c main_arg2 (by decide) (by decide) (by decide))⟩)
    (run_main m ρ)

/-- The frame claim's post alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (frame_and_result m ρ)

end Cert.KernelIdeal.Fr

end
-- ==== Proof.Spec.lean ====
/-
  What both programs compute, row by row, on the extended reals.

  With `e : [8192, 256]` the embeddings and `msk : [4096, 8192]` the negatives' mask, write
  `D i j = ∑ d, e i d * e j d` for the inner product of rows `i` and `j`. Row `r < 4096` contributes

      rowVal r = log (1 + ∑ j, (if msk r j then exp (D r j - D r (r + 4096)) else 0)),

  and the result is `(0 + ∑ r, rowVal r) / 4096`. The kernel reaches `rowVal r` by summing the eight column tiles
  of width 1024 one after the other into an accumulator that starts at zero; the reference sums the 8192 columns at
  once. Both are the same sum: addition on the extended reals is commutative and associative, so no finiteness is
  used. The anchor `D r (r + 4096)` is a row sum of products on the kernel's side and an entry of the full product
  matrix on the reference's: the same sum.
-/
import Idealize.ShloMosaic.PureOps.Ideal
import Idealize.ShloMosaic.Lib.ValueIdx

noncomputable section

namespace Cert.NPair

open Idealize.ShloMosaic Idealize.ShloMosaic.ValueIdx

/-- The embeddings' shape and the mask's. -/
abbrev SE : Shape := ⟨2, ![8192, 256]⟩
abbrev SM : Shape := ⟨2, ![4096, 8192]⟩

/-- Row `r` of the upper half is paired with row `r + 4096`. -/
abbrev partner (r : Fin 4096) : Fin 8192 := ⟨r.val + 4096, by omega⟩
/-- A row of the upper half as a row of the whole table. -/
abbrev upper (r : Fin 4096) : Fin 8192 := ⟨r.val, by omega⟩

/-- The inner product of rows `i` and `j` of the embeddings. -/
def dotRows (e : SE.Idx → EReal) (i j : Fin 8192) : EReal := ∑ d : Fin 256, e (ix2 i d) * e (ix2 j d)

/-- One term of a row's sum: `exp (D r j - D r (r + 4096))` where the mask is set, zero elsewhere. -/
def term (e : SE.Idx → EReal) (msk : SM.Idx → BitVec 1) (r : Fin 4096) (j : Fin 8192) : EReal :=
  if msk (ix2 r j) = 1#1 then Ideal.exp (dotRows e (upper r) j - dotRows e (upper r) (partner r)) else 0

/-- Row `r`'s value. -/
def rowVal (e : SE.Idx → EReal) (msk : SM.Idx → BitVec 1) (r : Fin 4096) : EReal :=
  Ideal.log1p (∑ j : Fin 8192, term e msk r j)

/-- The result: the mean of the row values, as both programs spell it (a sum from zero, divided by the float 4096). -/
def result (e : SE.Idx → EReal) (msk : SM.Idx → BitVec 1) : EReal :=
  Ideal.div (0 + ∑ r : Fin 4096, rowVal e msk r) (Ideal.ofBits .f32 0x45800000#32)

end Cert.NPair

end
-- ==== Proof.Sums.lean ====
/-
  Two facts about sums on the extended reals, with no program in sight.

  The sum over the 8192 columns is the sum over the eight column tiles of the sums over a tile's 1024 columns
  (addition is commutative and associative: no finiteness is used). And one column tile's contribution to a row, as
  the kernel's body computes it from what it loaded, is the specification's sum of terms over that tile, given what
  each loaded entry is.
-/
import proofs.«419425_j26792005992921_3_alg».proof.Proof.Spec

noncomputable section

namespace Cert.NPair

open Idealize.ShloMosaic Idealize.ShloMosaic.ValueIdx

/-- Column `q` of column tile `k`. -/
def tileCol (k : Fin 8) (q : Fin 1024) : Fin 8192 := ⟨1024 * k.val + q.val, by have := k.isLt; have := q.isLt; omega⟩

/-- The columns, tile by tile. -/
def tileEquiv : Fin 8 × Fin 1024 ≃ Fin 8192 where
  toFun kq := tileCol kq.1 kq.2
  invFun j := (⟨j.val / 1024, by have := j.isLt; omega⟩, ⟨j.val % 1024, Nat.mod_lt _ (by norm_num)⟩)
  left_inv kq := by
    obtain ⟨k, q⟩ := kq
    have := k.isLt; have := q.isLt
    ext <;> simp only [tileCol] <;> omega
  right_inv j := by
    ext; simp only [tileCol]; omega

/-- A sum over the 8192 columns, tile by tile. -/
theorem sum_by_tiles {M : Type*} [AddCommMonoid M] (f : Fin 8192 → M) :
    ∑ j : Fin 8192, f j = ∑ k : Fin 8, ∑ q : Fin 1024, f (tileCol k q) := by
  rw [← Equiv.sum_comp tileEquiv f, Fintype.sum_prod_type]
  rfl

/-- The same with the tiles counted by a natural number below 8. -/
theorem sum_by_tiles_range {M : Type*} [AddCommMonoid M] (f : Fin 8192 → M) :
    ∑ j : Fin 8192, f j = ∑ k ∈ Finset.range 8, ∑ q : Fin 1024, f ⟨1024 * (k % 8) + q.val, by have := q.isLt; omega⟩ := by
  rw [sum_by_tiles, Finset.sum_range]
  refine Finset.sum_congr rfl fun k _ => Finset.sum_congr rfl fun q _ => ?_
  congr 1
  apply Fin.ext
  show 1024 * k.val + q.val = 1024 * (k.val % 8) + q.val
  rw [Nat.mod_eq_of_lt k.isLt]

/-- One column tile's contribution to row `r`, from what the body loaded: `v7` the row tile of the embeddings,
    `v6` the column tile's rows, `a` the row's anchor, `w` the mask words. -/
theorem tile_terms (e : SE.Idx → EReal) (msk : SM.Idx → BitVec 1) (r : Fin 4096) (col : Fin 1024 → Fin 8192)
    (v7 : Fin 256 → EReal) (v6 : Fin 1024 → Fin 256 → EReal) (a : EReal) (w : Fin 1024 → BitVec 32)
    (h7 : ∀ d, v7 d = e (ix2 (upper r) d)) (h6 : ∀ q d, v6 q d = e (ix2 (col q) d))
    (ha : a = dotRows e (upper r) (partner r)) (hw : ∀ q, w q ≠ 0#32 ↔ msk (ix2 r (col q)) = 1#1) :
    (∑ q : Fin 1024, (if w q ≠ 0#32 then Ideal.exp ((∑ d : Fin 256, v7 d * v6 q d) - a) else 0))
      = ∑ q : Fin 1024, term e msk r (col q) := by
  refine Finset.sum_congr rfl fun q _ => ?_
  unfold term dotRows
  rw [ha]
  simp only [h7, h6]
  exact if_congr (hw q) rfl rfl

end Cert.NPair

end
-- ==== Proof.KI.Value.lean ====
/-
  The kernel program's result at the ideal instance is the specification's.

  Along a row tile the accumulator holds, after column tile `k`, the sum over the tiles `0 … k` of the tile's terms
  (induction along the grid: the first tile starts from the zero column, every later one adds to what the point before
  left). After the last tile the output block is `log1p` of the sum over all eight, which is the sum over the 8192
  columns: the row's value. The output's array is those blocks, and the four operations after the region sum the
  column from zero and divide by the float 4096.
-/
import proofs.«419425_j26792005992921_3_alg».proof.Proof.KI.Pieces
import proofs.«419425_j26792005992921_3_alg».proof.Proof.KI.Payload
import proofs.«419425_j26792005992921_3_alg».proof.Proof.KI.HostVals
import proofs.«419425_j26792005992921_3_alg».proof.Proof.KI.TailValue
import proofs.«419425_j26792005992921_3_alg».proof.Proof.KI.Cover
import proofs.«419425_j26792005992921_3_alg».proof.Proof.KI.Claim
import proofs.«419425_j26792005992921_3_alg».proof.Proof.Sums

set_option maxRecDepth 16384

noncomputable section

namespace Cert.KernelIdeal.Fr

open Cert.KernelIdeal Cert.KernelIdeal.Gen Cert.KernelIdeal.Pay Cert.NPair
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The embeddings and the mask on core `c`, as launched. -/
abbrev embs (c : Dev nD) : SE.Idx → EReal := m ((c : Thread nD τ).loc main_arg0)
abbrev mask (c : Dev nD) : SM.Idx → BitVec 1 := m ((c : Thread nD τ).loc main_arg2)

/-- One point's accumulate term at block row `p`: what entered, plus the column tile's terms of the row. -/
theorem step (c : Dev nD) (t : Fin cfg0.N) (xs0 : Vec Ideal S1024x1 .f32) (p : Fin 1024) :
    k0_pay2 (ekRows (grid0.coords t) (iblk m c 1 t)) (iblk m c 0 t) (iblk m c 2 t) (iblk m c 3 t) xs0 (ix2 p (0 : Fin 1))
      = xs0 (ix2 p (0 : Fin 1)) + ∑ q : Fin 1024, term (embs m c) (mask m c) (rowOf t p) (colOf t q) := by
  refine (pay2_apply _ _ _ _ _ p).trans ?_
  congr 1
  exact tile_terms (embs m c) (mask m c) (rowOf t p) (colOf t)
    (fun d => iblk m c 0 t (ix2 p d)) (fun q d => ekRows (grid0.coords t) (iblk m c 1 t) (ix2 q d))
    (iblk m c 2 t (ix2 p (0 : Fin 1))) (fun q => iblk m c 3 t (ix2 p q))
    (fun d => (iblk0_apply m c t p d).trans (by rw [V_arg0]))
    (fun q d => (ekRows_apply t _ q d).trans (by rw [iblk1_eq, V_arg0]))
    ((iblk2_apply m c t p).trans (V_anchor m c (rowOf t p)))
    (fun q => by rw [iblk3_apply]; exact V_mask m c (rowOf t p) (colOf t q))

/-- At a first column tile the accumulator ends at the tile's terms over zero. -/
theorem acc_first (c : Dev nD) (t : Fin cfg0.N) (h0 : t.val % 8 = 0) (p : Fin 1024) :
    (outsAt0 m c t.val t.isLt).2 (ix2 p (0 : Fin 1)) = ∑ q : Fin 1024, term (embs m c) (mask m c) (rowOf t p) (colOf t q) := by
  rw [outsAt0_A m c t h0 (by omega)]
  dsimp only
  rw [sout0_A_0_eq]
  refine (step m c t _ p).trans ?_
  rw [pay1_apply, zero_add]

/-- At a later column tile it ends at what the point before left plus the tile's terms. -/
theorem acc_next (c : Dev nD) (t : Fin cfg0.N) (h0 : ¬t.val % 8 = 0) (p : Fin 1024) :
    (outsAt0 m c t.val t.isLt).2 (ix2 p (0 : Fin 1))
      = (outsAt0 m c (t.val - 1) (Nat.lt_of_le_of_lt (Nat.sub_le _ _) t.isLt)).2 (ix2 p (0 : Fin 1))
        + ∑ q : Fin 1024, term (embs m c) (mask m c) (rowOf t p) (colOf t q) := by
  by_cases h1 : t.val % 8 = 7
  · rw [outsAt0_C m c t h0 h1]
    dsimp only
    rw [sout0_C_0_eq]
    exact step m c t _ p
  · rw [outsAt0_B m c t h0 h1]
    dsimp only
    rw [sout0_B_0_eq]
    exact step m c t _ p

/-- The same with the point before named by its position. -/
theorem acc_next' (c : Dev nD) (n : ℕ) (hn : n + 1 < cfg0.N) (h0 : ¬(n + 1) % 8 = 0) (p : Fin 1024) :
    (outsAt0 m c (n + 1) hn).2 (ix2 p (0 : Fin 1))
      = (outsAt0 m c n (Nat.lt_of_succ_lt hn)).2 (ix2 p (0 : Fin 1))
        + ∑ q : Fin 1024, term (embs m c) (mask m c) (rowOf ⟨n + 1, hn⟩ p) (colOf ⟨n + 1, hn⟩ q) :=
  acc_next m c ⟨n + 1, hn⟩ h0 p

/-- The sum of the terms of row `r` over the column tiles `0 … k`. -/
def upTo (c : Dev nD) (r : Fin 4096) (k : ℕ) : EReal :=
  ∑ k' ∈ Finset.range (k + 1), ∑ q : Fin 1024, term (embs m c) (mask m c) r (colK k' q)

/-- THE ACCUMULATION: after position `n` the accumulator holds, in block row `p`, the row's terms over the column
    tiles up to `n % 8`. -/
theorem acc_eq (c : Dev nD) : ∀ (n : ℕ) (hn : n < cfg0.N) (p : Fin 1024),
    (outsAt0 m c n hn).2 (ix2 p (0 : Fin 1)) = upTo m c (rowOf ⟨n, hn⟩ p) (n % 8) := by
  intro n
  induction n with
  | zero =>
    intro hn p
    refine (acc_first m c ⟨0, hn⟩ (Nat.zero_mod 8) p).trans ?_
    unfold upTo
    rw [Nat.zero_mod, Finset.sum_range_one]
    exact Finset.sum_congr rfl fun q _ => by rw [colOf_eq]; rfl
  | succ n ih =>
    intro hn p
    by_cases h0 : (n + 1) % 8 = 0
    · refine (acc_first m c ⟨n + 1, hn⟩ h0 p).trans ?_
      unfold upTo
      rw [h0, Finset.sum_range_one]
      exact Finset.sum_congr rfl fun q _ => by
        rw [colOf_eq]; show term _ _ _ (colK ((n + 1) % 8) q) = _; rw [h0]
    · refine (acc_next' m c n hn h0 p).trans ?_
      have hrow : rowOf ⟨n, Nat.lt_of_succ_lt hn⟩ p = rowOf ⟨n + 1, hn⟩ p := by
        unfold rowOf; apply Fin.ext; show 1024 * (n / 8) + p.val = 1024 * ((n + 1) / 8) + p.val; omega
      have hk : (n + 1) % 8 = n % 8 + 1 := by omega
      rw [ih (Nat.lt_of_succ_lt hn) p, hrow]
      unfold upTo
      rw [hk, Finset.sum_range_succ (n := n % 8 + 1)]
      congr 1
      exact Finset.sum_congr rfl fun q _ => by
        rw [colOf_eq]; show term _ _ _ (colK ((n + 1) % 8) q) = _; rw [hk]

/-- After the last column tile of a row tile the output block holds the rows' values. -/
theorem out_row (c : Dev nD) (t : Fin cfg0.N) (h7 : t.val % 8 = 7) (p : Fin 1024) :
    (outsAt0 m c t.val t.isLt).1 (ix2 p (0 : Fin 1)) = rowVal (embs m c) (mask m c) (rowOf t p) := by
  have h2 := acc_eq m c t.val t.isLt p
  rw [outsAt0_C m c t (by omega) h7] at h2 ⊢
  dsimp only at h2 ⊢
  rw [sout0_C_0_eq] at h2
  rw [out0_C_4_eq, pay3_apply, h2]
  unfold upTo rowVal
  rw [h7, sum_by_tiles_range]
  rfl

/-- THE RESULT: the kernel program's result buffer ends at the specification's value. -/
theorem kernel_result (c : Dev nD) :
    Wy m c (Proc.devRef .tc main_v8) = fun _ => result (embs m c) (mask m c) := by
  rw [tail_value]
  funext _
  unfold result
  exact congrArg (fun s : EReal => Ideal.div (0 + s) (Ideal.ofBits .f32 0x45800000#32))
    (Finset.sum_congr rfl fun r _ => out_final m c (rowVal (embs m c) (mask m c)) (fun t h7 p => out_row m c t h7 p) r)

end Cert.KernelIdeal.Fr

end
-- ==== Proof.RefBridge.lean ====
/-
  The reference program, read at an index, is the row-by-row specification.

  Read from the result outwards: the mean is a division of a sum from zero by the float 4096; each summand is
  `log (1 + ·)` of a row's sum from zero; a summand of the row's sum is `exp` of an entry of the upper half of the product
  matrix less the row's anchor where the mask is set, the zero word elsewhere. The anchor is a gather whose start indices
  are the row number and the row number plus 4096, each passed through the negative-index correction
  `select (x < 0) (x + size) x`, which changes neither (both are small non-negative words), and both already inside the
  operand, so the gather's clamp changes neither. An entry of the product matrix is the inner product of two rows.
-/
import proofs.«419425_j26792005992921_3_alg».proof.Proof.Spec
import proofs.«419425_j26792005992921_3_alg».proof.Proof.RefRun
import proofs.«419425_j26792005992921_3_alg».proof.Proof.RefReadG
import Idealize.ShloMosaic.Lib.ValueIdx
import Idealize.ShloMosaic.Lib.ValueIdxRank1
import Idealize.ShloMosaic.Lib.Pipeline.Value
import Idealize.ShloMosaic.Lib.StableHlo.Predicate
import Idealize.ShloMosaic.PureOps.Ideal.Laws

noncomputable section

namespace Cert.ReferenceIdeal.Bridge

open Cert.ReferenceIdeal Cert.ReferenceIdeal.Gen Cert.ReferenceIdeal.ReadP Cert.NPair
open Idealize.ShloMosaic Idealize.ShloMosaic.ValueIdx Idealize.ShloMosaic.StableHlo.Predicate

/-! ## The two index columns -/

/-- A row number below 4096 as a 32-bit word is not negative. -/
theorem small_not_neg (n : Nat) (hn : n < 2 ^ 31) : IntOp.cmpi .slt (BitVec.ofNat 32 n) 0#32 ≠ 1#1 := by
  intro h
  have h0 : (0#32 : BitVec 32).toNat < 2 ^ 31 := by decide
  have hn' : (BitVec.ofNat 32 n).toNat < 2 ^ 31 := by rw [BitVec.toNat_ofNat]; omega
  have := (slt_iff_toNat hn' h0).mp h
  simp at this

/-- The first column of start indices: the row number (the correction for a negative index does not fire). -/
theorem col_row (r : Fin 4096) : val_main_v11 (F := Ideal) (ix1 r) = BitVec.ofNat 32 r.val := by
  rw [val_main_v11_apply, val_main_v8_apply, val_main_v3_apply, val_main_v7_apply, val_main_c_0_apply]
  show Scalar.select (IntOp.cmpi .slt (BitVec.ofNat 32 r.val) 0#32) _ _ = _
  exact if_neg (small_not_neg r.val (by have := r.isLt; omega))

/-- The second column of start indices: the row number plus 4096 (no wrap, and the correction does not fire). -/
theorem col_partner (r : Fin 4096) : val_main_v16 (F := Ideal) (ix1 r) = BitVec.ofNat 32 (r.val + 4096) := by
  have e6 : val_main_v6 (F := Ideal) (ix1 r) = BitVec.ofNat 32 (r.val + 4096) := by
    rw [val_main_v6_apply, val_main_v4_apply, val_main_v5_apply, val_main_c_apply]
    show BitVec.ofNat 32 r.val + BitVec.ofNat 32 4096 = _
    exact (BitVec.ofNat_add ..).symm
  rw [val_main_v16_apply, val_main_v13_apply, e6, val_main_v12_apply, val_main_c_2_apply]
  exact if_neg (small_not_neg (r.val + 4096) (by have := r.isLt; omega))

/-! ## The start indices, joined, and the gather -/

/-- The joined start indices at `(r, 0)`: the first column. -/
theorem starts_at_zero (r : Fin 4096) :
    val_main_v19 (F := Ideal) (ix2 r (0 : Fin 2)) = BitVec.ofNat 32 r.val := by
  unfold val_main_v19
  rw [concatenate_pair_apply_left (1 : Fin S4096x2.rank) (val_main_v17 (F := Ideal)) (val_main_v18 (F := Ideal))
    concatenates_S4096x1_S4096x1_S4096x2_d1 (ix2 r (0 : Fin 2)) rfl (ix2 r (0 : Fin 1))
    (fun b => match b with | ⟨0, _⟩ => rfl | ⟨1, _⟩ => rfl)]
  rw [val_main_v17_apply]
  exact col_row r

/-- The joined start indices at `(r, 1)`: the second column. -/
theorem starts_at_one (r : Fin 4096) :
    val_main_v19 (F := Ideal) (ix2 r (1 : Fin 2)) = BitVec.ofNat 32 (r.val + 4096) := by
  unfold val_main_v19
  rw [concatenate_pair_apply_right (1 : Fin S4096x2.rank) (val_main_v17 (F := Ideal)) (val_main_v18 (F := Ideal))
    concatenates_S4096x1_S4096x1_S4096x2_d1 (ix2 r (1 : Fin 2)) rfl rfl (ix2 r (0 : Fin 1))
    (fun b => match b with | ⟨0, _⟩ => fun _ => rfl | ⟨1, _⟩ => fun h => absurd rfl h) rfl]
  rw [val_main_v18_apply]
  exact col_partner r

/-- The gather's operand row for result index `r`: the clamped first start index (no batching or offset axes). -/
theorem gather_row (idx : IVec S4096x2 32) (r : Fin 4096) :
    (gather_S4096x8192_S4096x2_S4096_n_01_n_n_01_1_11.operandIdx (ix1 r) idx 0).val
      = min (idx (ix2 r (0 : Fin 2))).toInt.toNat 4095 := by
  show gather_S4096x8192_S4096x2_S4096_n_01_n_n_01_1_11.start (ix1 r) idx 0
    + gather_S4096x8192_S4096x2_S4096_n_01_n_n_01_1_11.batchCoord (ix1 r) 0
    + gather_S4096x8192_S4096x2_S4096_n_01_n_n_01_1_11.offCoord (ix1 r) 0 = _
  rw [GatherDims.batchCoord_eq_zero _ _ _ List.not_mem_nil,
    GatherDims.offCoord_eq_zero _ _ _ (fun h => ((GatherDims.mem_sKept _ _).mp h).1 (List.mem_cons_self ..))]
  simp only [Nat.add_zero]
  unfold GatherDims.start
  rw [dif_pos (show (0 : Fin S4096x8192.rank) ∈ gather_S4096x8192_S4096x2_S4096_n_01_n_n_01_1_11.startIndexMap from List.mem_cons_self ..)]
  have hsi : gather_S4096x8192_S4096x2_S4096_n_01_n_n_01_1_11.siIdx (ix1 r)
      ⟨List.idxOf (0 : Fin S4096x8192.rank) gather_S4096x8192_S4096x2_S4096_n_01_n_n_01_1_11.startIndexMap,
        List.idxOf_lt_length_iff.2 (List.mem_cons_self ..)⟩ = ix2 r (0 : Fin 2) := by
    funext b; refine Fin.ext ?_
    match b with
    | ⟨0, _⟩ => rfl
    | ⟨1, _⟩ => rfl
  rw [hsi]
  rfl

/-- The gather's operand column for result index `r`: the clamped second start index. -/
theorem gather_col (idx : IVec S4096x2 32) (r : Fin 4096) :
    (gather_S4096x8192_S4096x2_S4096_n_01_n_n_01_1_11.operandIdx (ix1 r) idx 1).val
      = min (idx (ix2 r (1 : Fin 2))).toInt.toNat 8191 := by
  show gather_S4096x8192_S4096x2_S4096_n_01_n_n_01_1_11.start (ix1 r) idx 1
    + gather_S4096x8192_S4096x2_S4096_n_01_n_n_01_1_11.batchCoord (ix1 r) 1
    + gather_S4096x8192_S4096x2_S4096_n_01_n_n_01_1_11.offCoord (ix1 r) 1 = _
  rw [GatherDims.batchCoord_eq_zero _ _ _ List.not_mem_nil,
    GatherDims.offCoord_eq_zero _ _ _ (fun h => ((GatherDims.mem_sKept _ _).mp h).1
      (List.mem_cons_of_mem _ (List.mem_cons_self ..)))]
  simp only [Nat.add_zero]
  unfold GatherDims.start
  rw [dif_pos (show (1 : Fin S4096x8192.rank) ∈ gather_S4096x8192_S4096x2_S4096_n_01_n_n_01_1_11.startIndexMap from
    List.mem_cons_of_mem _ (List.mem_cons_self ..))]
  have hsi : gather_S4096x8192_S4096x2_S4096_n_01_n_n_01_1_11.siIdx (ix1 r)
      ⟨List.idxOf (1 : Fin S4096x8192.rank) gather_S4096x8192_S4096x2_S4096_n_01_n_n_01_1_11.startIndexMap,
        List.idxOf_lt_length_iff.2 (List.mem_cons_of_mem _ (List.mem_cons_self ..))⟩ = ix2 r (1 : Fin 2) := by
    funext b; refine Fin.ext ?_
    match b with
    | ⟨0, _⟩ => rfl
    | ⟨1, _⟩ => rfl
  rw [hsi]
  rfl

/-- The gather read at `r`: the operand at the two clamped start indices. -/
theorem gather_apply {α : Type} (x : S4096x8192.Idx → α) (idx : IVec S4096x2 32) (r : Fin 4096) (p : Fin 4096) (q : Fin 8192)
    (hp : min (idx (ix2 r (0 : Fin 2))).toInt.toNat 4095 = p.val)
    (hq : min (idx (ix2 r (1 : Fin 2))).toInt.toNat 8191 = q.val) :
    Host.gather gather_S4096x8192_S4096x2_S4096_n_01_n_n_01_1_11 x idx (ix1 r) = x (ix2 p q) := by
  unfold Host.gather
  refine congrArg x (funext fun a => Fin.ext ?_)
  match a with
  | ⟨0, _⟩ => exact (gather_row idx r).trans hp
  | ⟨1, _⟩ => exact (gather_col idx r).trans hq

/-! ## The product matrix and the anchor -/

/-- An entry of the upper half of the product matrix is the inner product of the two rows. -/
theorem rows_apply (x0 : (⟨S8192x256, .f32⟩ : BufTy).Contents (Elt Ideal)) (r : Fin 4096) (j : Fin 8192) :
    val_main_v2 (F := Ideal) x0 (ix2 r j) = dotRows x0 (upper r) j := by
  rw [val_main_v2_apply, val_main_v1_apply]
  unfold dotRows
  refine Finset.sum_congr rfl fun k _ => ?_
  rw [val_main_v0_apply]
  have el : lidx_main_v1 (idx_main_v2 (ix2 r j)) k = ix2 (upper r) k :=
    funext fun a => Fin.ext (by match a with | ⟨0, _⟩ => rfl | ⟨1, _⟩ => rfl)
  have er : idx_main_v0 (ridx_main_v1 (idx_main_v2 (ix2 r j)) k) = ix2 j k :=
    funext fun a => Fin.ext (by match a with | ⟨0, _⟩ => rfl | ⟨1, _⟩ => rfl)
  rw [el, er]

/-- The anchor of row `r`: the entry `(r, r + 4096)` of the upper half of the product matrix. -/
theorem anchor_apply (x0 : (⟨S8192x256, .f32⟩ : BufTy).Contents (Elt Ideal)) (r : Fin 4096) :
    val_main_v20 (F := Ideal) x0 (ix1 r) = dotRows x0 (upper r) (partner r) := by
  unfold val_main_v20
  rw [gather_apply (val_main_v2 (F := Ideal) x0) (val_main_v19 (F := Ideal)) r r (partner r)
    (by rw [starts_at_zero, toInt_ofNat_small r.val (by have := r.isLt; omega)]
        have := r.isLt; simp only [Int.toNat_natCast]; omega)
    (by rw [starts_at_one, toInt_ofNat_small (r.val + 4096) (by have := r.isLt; omega)]
        have := r.isLt; simp only [Int.toNat_natCast]; show min (r.val + 4096) 8191 = r.val + 4096; omega)]
  exact rows_apply x0 r (partner r)

/-! ## A row's sum, the rows' sum, the mean -/

/-- One term of a row's sum: `exp` of the entry less the anchor where the mask is set, zero elsewhere. -/
theorem term_apply (x0 : (⟨S8192x256, .f32⟩ : BufTy).Contents (Elt Ideal)) (x2 : (⟨S4096x8192, .i1⟩ : BufTy).Contents (Elt Ideal))
    (r : Fin 4096) (j : Fin 8192) :
    val_main_v25 (F := Ideal) x0 x2 (ix2 r j) = term x0 x2 r j := by
  have e : idx_main_v21 (idx_main_v22 (ix2 r j)) = ix1 r :=
    funext fun a => Fin.ext (by match a with | ⟨0, _⟩ => rfl)
  rw [val_main_v25_apply, val_main_v24_apply, val_main_v23_apply, val_main_v22_apply, val_main_v21_apply,
    val_main_call0_v1_apply, val_main_call0_v0_apply, val_main_cst_apply, e, anchor_apply, rows_apply]
  simp only [Ideal.hostUnary_exp_def, Ideal.subf_def, Ideal.ofBits_def, Ideal.ofBits_zero_f32]
  rfl

/-- Row `r`'s value: `log (1 + ·)` of the row's sum, whose zero start adds nothing. -/
theorem row_apply (x0 : (⟨S8192x256, .f32⟩ : BufTy).Contents (Elt Ideal)) (x2 : (⟨S4096x8192, .i1⟩ : BufTy).Contents (Elt Ideal))
    (r : Fin 4096) :
    val_main_v27 (F := Ideal) x0 x2 (ix1 r) = rowVal x0 x2 r := by
  rw [val_main_v27_apply, val_main_v26_apply, val_main_cst_4_apply]
  unfold rowVal
  simp only [Ideal.hostUnary_log1p_def, Ideal.ofBits_def, Ideal.ofBits_zero_f32, zero_add]
  refine congrArg Ideal.log1p (Finset.sum_congr rfl fun k _ => ?_)
  have e : idx_main_v26 (ix1 r) k = ix2 r k :=
    funext fun a => Fin.ext (by match a with | ⟨0, _⟩ => rfl | ⟨1, _⟩ => rfl)
  rw [e]
  exact term_apply x0 x2 r k

/-- The reference's result, at its one index, is the specification's mean. -/
theorem val_result (x0 : (⟨Cert.ReferenceIdeal.S8192x256, .f32⟩ : BufTy).Contents (Elt Ideal)) (x2 : (⟨Cert.ReferenceIdeal.S4096x8192, .i1⟩ : BufTy).Contents (Elt Ideal)) :
    Cert.ReferenceIdeal.ReadP.val_main_v29 (F := Ideal) x0 x2 = fun _ => Cert.NPair.result x0 x2 := by
  funext i
  rw [val_main_v29_apply, val_main_v28_apply, val_main_cst_5_apply, val_main_cst_6_apply]
  unfold result
  simp only [Ideal.hostDivf_def, Ideal.ofBits_def, Ideal.ofBits_zero_f32]
  refine congrArg (fun s => Ideal.div (0 + s) (Ideal.ofBits .f32 0x45800000#32)) ?_
  rw [← Equiv.sum_comp (idxEquiv1 (n := 4096)).symm]
  exact Finset.sum_congr rfl fun r _ => row_apply x0 x2 r

/-! ## The reference's run -/

/-- Every weakly fair execution of the reference ends with its result at the specification's mean, its arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v29) = (fun _ => Cert.NPair.result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) :=
  (θ_run (Cert.ReferenceIdeal.defs (F := Ideal)) _ _).mono
    (fun _ h c => ⟨(h c).1.trans ((val_main_v29_eq (F := Ideal) _ _).trans (val_result _ _)), (h c).2⟩)
    (Cert.ReferenceIdeal.ValueP.run (F := Ideal) m ρ)

end Cert.ReferenceIdeal.Bridge

end
-- ==== Proof.lean ====
/-
  The certificate: the masked-exponential row loss, as a tiled kernel with a carried column accumulator, against its
  one-shot reference.

  Both programs compute, over the extended reals, the mean over the 4096 rows `r` of
  `log (1 + ∑ j, (if mask r j then exp (⟨e r, e j⟩ - ⟨e r, e (r + 4096)⟩) else 0))` (Proof/Spec.lean). The kernel
  reaches a row's sum tile by tile (eight column tiles added one after the other to an accumulator that starts at
  zero), the reference sums the 8192 columns at once; the anchor is a row sum of products on the kernel's side and an
  entry of the full product matrix on the reference's. Sums on the extended reals are commutative and associative, so
  the two agree on every input: the precondition is not used by the value claim.

  The three frames: each kernel program runs to the end, faults nowhere and leaves its arguments as launched
  (Proof/KB, Proof/KI: the body's run per control case, the region's invariant carrying the accumulator, the launch
  with the embeddings' share dealt to the two windows on them); the reference's is its run with the result dropped.
  The idealization rewrote no operation, so there is nothing to preserve.
-/
import proofs.«419425_j26792005992921_3_alg».proof.Defs
import proofs.«419425_j26792005992921_3_alg».proof.Proof.Gen.Kernel
import proofs.«419425_j26792005992921_3_alg».proof.Proof.Gen.KernelIdeal
import proofs.«419425_j26792005992921_3_alg».proof.Proof.Gen.ReferenceIdeal
import proofs.«419425_j26792005992921_3_alg».proof.Proof.Gen.Pre_finite_inputs
import proofs.«419425_j26792005992921_3_alg».proof.Proof.KB.Claim
import proofs.«419425_j26792005992921_3_alg».proof.Proof.KI.Value
import proofs.«419425_j26792005992921_3_alg».proof.Proof.RefBridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Fr.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Bridge.ref_run m ρ)

/-- From memories that agree on the arguments both programs end with the specification's value of the kernel
    program's arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.NPair.result (m ((c.tc : Thread Cert.KernelIdeal.nD Cert.KernelIdeal.τ).loc Cert.KernelIdeal.main_arg0))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Fr.frame_and_result (F := Ideal) m ρ)
    exact Cert.KernelIdeal.Fr.kernel_result m c
  · refine (θ_run Cert.ReferenceIdeal.defs _ _).mono (fun _ h c => ⟨(h c).1.trans ?_, (h c).2⟩)
      (Cert.ReferenceIdeal.Bridge.ref_run m' ρ')
    rw [(hagree c).1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
